-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x2048 : Shape := ⟨2, ![10000, 2048]⟩
abbrev S2048x10000 : Shape := ⟨2, ![2048, 10000]⟩
abbrev S3 : Shape := ⟨1, ![3]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x2048 : S_.BroadcastsInDim S10000x2048 (![] : Fin 0 → Fin S10000x2048.rank)
  reducesTo_S10000x2048_S_d0_1 : S10000x2048.ReducesTo [0, 1] S_
  bcast_S_S2048x10000 : S_.BroadcastsInDim S2048x10000 (![] : Fin 0 → Fin S2048x10000.rank)
  reducesTo_S2048x10000_S_d0_1 : S2048x10000.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  main_v18

def fn {F : FTy → Type} [FloatOps F] (main_arg0 : FVec F S10000x128 .f32) (main_arg1 : FVec F S10000x2048 .f32) (main_arg2 : FVec F S2048x10000 .f32) (main_arg3 : FVec F S3 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x2048 .f32 := Host.absf main_arg1
  let main_cst_0 : FVec F S_ .f32 := constant S_ .f32 0x7F800000#32
  let main_v5 : FVec F S10000x2048 .f32 := broadcastInDim S10000x2048 ![] bcast_S_S10000x2048 main_cst_0
  let main_v6 : IVec S10000x2048 1 := cmpf .olt main_v4 main_v5
  let main_c_1 : IVec S_ 1 := constantI S_ 1 1#1
  let main_v7 : IVec S_ 1 := (fun x v => Host.reduce IntOp.andi x v reducesTo_S10000x2048_S_d0_1 h_S_) main_v6 main_c_1
  let main_v8 : IVec S_ 1 := andi main_v3 main_v7
  let main_v9 : FVec F S2048x10000 .f32 := Host.absf main_arg2
  let main_cst_2 : FVec F S_ .f32 := constant S_ .f32 0x7F800000#32
  let main_v10 : FVec F S2048x10000 .f32 := broadcastInDim S2048x10000 ![] bcast_S_S2048x10000 main_cst_2
  let main_v11 : IVec S2048x10000 1 := cmpf .olt main_v9 main_v10
  let main_c_3 : IVec S_ 1 := constantI S_ 1 1#1
  let main_v12 : IVec S_ 1 := (fun x v => Host.reduce IntOp.andi x v reducesTo_S2048x10000_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_v13 main_v16
-- ==== Kernel.lean ====
abbrev S10000x128 : Shape := ⟨2, ![10000, 128]⟩
abbrev S10000x2048 : Shape := ⟨2, ![10000, 2048]⟩
abbrev S2048x10000 : Shape := ⟨2, ![2048, 10000]⟩
abbrev S3 : Shape := ⟨1, ![3]⟩
abbrev S1x3 : Shape := ⟨2, ![1, 3]⟩
abbrev S2048x128 : Shape := ⟨2, ![2048, 128]⟩
abbrev S256x10000 : Shape := ⟨2, ![256, 10000]⟩
abbrev S256x128 : Shape := ⟨2, ![256, 128]⟩
abbrev S1000x2048 : Shape := ⟨2, ![1000, 2048]⟩
abbrev S1000x128 : Shape := ⟨2, ![1000, 128]⟩
abbrev S1 : Shape := ⟨1, ![1]⟩
abbrev S1x1 : Shape := ⟨2, ![1, 1]⟩

abbrev nBuf : Space → Nat
  | .hbm => 9
  | .vmem => 27
  | .smem => 0
  | _ => 0

abbrev bufTy : (tb : Table) → Fin (tcTables nBuf tb) → BufTy
  | .hbm, ⟨0, _⟩ => ⟨S10000x128, .f32⟩
  | .hbm, ⟨1, _⟩ => ⟨S10000x2048, .f32⟩
  | .hbm, ⟨2, _⟩ => ⟨S2048x10000, .f32⟩
  | .hbm, ⟨3, _⟩ => ⟨S3, .f32⟩
  | .hbm, ⟨4, _⟩ => ⟨S1x3, .f32⟩
  | .hbm, ⟨5, _⟩ => ⟨S2048x128, .f32⟩
  | .hbm, ⟨6, _⟩ => ⟨S10000x128, .f32⟩
  | .hbm, ⟨7, _⟩ => ⟨S2048x128, .f32⟩
  | .hbm, ⟨8, _⟩ => ⟨S10000x128, .f32⟩
  | .local _ .vmem, ⟨0, _⟩ => ⟨S256x10000, .f32⟩
  | .local _ .vmem, ⟨1, _⟩ => ⟨S256x10000, .f32⟩
  | .local _ .vmem, ⟨2, _⟩ => ⟨S10000x128, .f32⟩
  | .local _ .vmem, ⟨3, _⟩ => ⟨S256x128, .f32⟩
  | .local _ .vmem, ⟨4, _⟩ => ⟨S256x128, .f32⟩
  | .local _ .vmem, ⟨5, _⟩ => ⟨S1000x2048, .f32⟩
  | .local _ .vmem, ⟨6, _⟩ => ⟨S1000x2048, .f32⟩
  | .local _ .vmem, ⟨7, _⟩ => ⟨S2048x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S256x10000, .f32⟩
  | .local _ .vmem, ⟨13, _⟩ => ⟨S256x10000, .f32⟩
  | .local _ .vmem, ⟨14, _⟩ => ⟨S10000x128, .f32⟩
  | .local _ .vmem, ⟨15, _⟩ => ⟨S256x128, .f32⟩
  | .local _ .vmem, ⟨16, _⟩ => ⟨S256x128, .f32⟩
  | .local _ .vmem, ⟨17, _⟩ => ⟨S1000x2048, .f32⟩
  | .local _ .vmem, ⟨18, _⟩ => ⟨S1000x2048, .f32⟩
  | .local _ .vmem, ⟨19, _⟩ => ⟨S2048x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S1x3, .f32⟩
  | .local _ .vmem, ⟨25, _⟩ => ⟨S1000x128, .f32⟩
  | .local _ .vmem, ⟨26, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23
abbrev cc3_sem4_0 : DmaSem sig := 24
abbrev cc3_sem5_0 : DmaSem sig := 25
abbrev cc3_sem5_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x3 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S3_S1x3 : S3.ShapeCasts S1x3
  inb_S256x10000_S256x10000_0_0 : ∀ a, (![0, 0] : Fin 2 → Nat) a + S256x10000.size a ≤ S256x10000.size a
  h_S256x10000 : 0 < S256x10000.numel
  inb_S10000x128_S10000x128_0_0 : ∀ a, (![0, 0] : Fin 2 → Nat) a + S10000x128.size a ≤ S10000x128.size a
  h_S10000x128 : 0 < S10000x128.numel
  inb_S256x128_S256x128_0_0 : ∀ a, (![0, 0] : Fin 2 → Nat) a + S256x128.size a ≤ S256x128.size a
  h_S256x128 : 0 < S256x128.numel
  inb_S1000x2048_S1000x2048_0_0 : ∀ a, (![0, 0] : Fin 2 → Nat) a + S1000x2048.size a ≤ S1000x2048.size a
  h_S1000x2048 : 0 < S1000x2048.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1000x128_S1000x128_0_0 : ∀ a, (![0, 0] : Fin 2 → Nat) a + S1000x128.size a ≤ S1000x128.size a
  h_S1000x128 : 0 < S1000x128.numel
  shapeCasts_S10000x128_S10000x128 : S10000x128.ShapeCasts S10000x128
  inb_S1x3_S1x3_0_0 : ∀ a, (![0, 0] : Fin 2 → Nat) a + S1x3.size a ≤ S1x3.size a
  h_S1x3 : 0 < S1x3.numel
  shapeCasts_S1x3_S3 : S1x3.ShapeCasts S3
  reduces_S1x3_S1 : S1x3.Reduces [1] S1
  shapeCasts_S1_S1x1 : S1.ShapeCasts S1x1
  inpos_S1x1_p0_0 : ∀ a, (![0, 0] : Fin 2 → Nat) a < S1x1.size a
  slices_S3_o0_S1 : S3.Slices ![0] S1
  inpos_S1_p0 : ∀ a, (![0] : Fin 1 → Nat) a < S1.size a
  slices_S3_o1_S1 : S3.Slices ![1] S1
  slices_S3_o2_S1 : S3.Slices ![2] S1
  shapeCasts_S1000x128_S1000x128 : S1000x128.ShapeCasts S1000x128
  dot_S256x10000_S10000x128_S256x128_1_0_0_1_n_n_wf : DotDims.WF S256x10000 S10000x128 S256x128 [1] [0] [0] [1] [] []
  dot_S1000x2048_S2048x128_S1000x128_1_0_0_1_n_n_wf : DotDims.WF S1000x2048 S2048x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10000.size a ≤ S2048x10000.size a
  hwx0_0 : ∀ i : grid0.Coords, EltTy.bits .f32 = 32 ∨ (Rect.block (s := S2048x10000) S256x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S2048x128.size a
  hwx0_2 : ∀ i : grid0.Coords, EltTy.bits .f32 = 32 ∨ (Rect.block (s := S2048x128) S256x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x2048.size a ≤ S10000x2048.size a
  hwx1_0 : ∀ i : grid1.Coords, EltTy.bits .f32 = 32 ∨ (Rect.block (s := S10000x2048) S1000x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S2048x128.size a
  hwx1_1 : ∀ i : grid1.Coords, EltTy.bits .f32 = 32 ∨ (Rect.block (s := S2048x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S10000x128.size a
  hwx1_2 : ∀ i : grid1.Coords, EltTy.bits .f32 = 32 ∨ (Rect.block (s := S10000x128) S1000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S10000x128.size a
  hwx1_3 : ∀ i : grid1.Coords, EltTy.bits .f32 = 32 ∨ (Rect.block (s := S10000x128) S1000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x10000.size a ≤ S2048x10000.size a
  hwx2_0 : ∀ i : grid2.Coords, EltTy.bits .f32 = 32 ∨ (Rect.block (s := S2048x10000) S256x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S2048x128.size a
  hwx2_2 : ∀ i : grid2.Coords, EltTy.bits .f32 = 32 ∨ (Rect.block (s := S2048x128) S256x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x2048.size a ≤ S10000x2048.size a
  hwx3_0 : ∀ i : grid3.Coords, EltTy.bits .f32 = 32 ∨ (Rect.block (s := S10000x2048) S1000x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S2048x128.size a
  hwx3_1 : ∀ i : grid3.Coords, EltTy.bits .f32 = 32 ∨ (Rect.block (s := S2048x128) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x128.size a ≤ S10000x128.size a
  hwx3_2 : ∀ i : grid3.Coords, EltTy.bits .f32 = 32 ∨ (Rect.block (s := S10000x128) S1000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x128.size a ≤ S10000x128.size a
  hwx3_3 : ∀ i : grid3.Coords, EltTy.bits .f32 = 32 ∨ (Rect.block (s := S10000x128) S1000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x3.size a ≤ S1x3.size a
  hwx3_4 : ∀ i : grid3.Coords, EltTy.bits .f32 = 32 ∨ (Rect.block (s := S1x3) S1x3.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x128.size a ≤ S10000x128.size a
  hwx3_5 : ∀ i : grid3.Coords, EltTy.bits .f32 = 32 ∨ (Rect.block (s := S10000x128) S1000x128.size (cc3_transform_5 i) (hinb3_5 i)).WholeWords (EltTy.packing .f32)

variable [Facts₀]

def dot_S256x10000_S10000x128_S256x128_1_0_0_1_n_n : DotDims S256x10000 S10000x128 S256x128 where
  lhsContracting := [1]
  rhsContracting := [0]
  lhsNonContracting := [0]
  rhsNonContracting := [1]
  lhsBatch := []
  rhsBatch := []
  wf := dot_S256x10000_S10000x128_S256x128_1_0_0_1_n_n_wf
def dot_S1000x2048_S2048x128_S1000x128_1_0_0_1_n_n : DotDims S1000x2048 S2048x128 S1000x128 where
  lhsContracting := [1]
  rhsContracting := [0]
  lhsNonContracting := [0]
  rhsNonContracting := [1]
  lhsBatch := []
  rhsBatch := []
  wf := dot_S1000x2048_S2048x128_S1000x128_1_0_0_1_n_n_wf

abbrev win0_0 : Pipeline.Window sig grid0 :=
  Pipeline.Window.ofSpec (Memref.whole main_arg2) S256x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1000x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S256x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S256x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S1000x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S2048x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2) S1000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg0) S1000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v0) S1x3.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v4) S1000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x2048 : Shape := ⟨2, ![10000, 2048]⟩
abbrev S2048x10000 : Shape := ⟨2, ![2048, 10000]⟩
abbrev S3 : Shape := ⟨1, ![3]⟩
abbrev S2048x128 : Shape := ⟨2, ![2048, 128]⟩
abbrev S_ : Shape := ⟨0, ![]⟩
abbrev S1 : Shape := ⟨1, ![1]⟩
abbrev S1x10000x128 : Shape := ⟨3, ![1, 10000, 128]⟩
abbrev S3x10000x128 : Shape := ⟨3, ![3, 10000, 128]⟩
abbrev S3x1x1 : Shape := ⟨3, ![3, 1, 1]⟩

abbrev nBuf : Space → Nat
  | .hbm => 38
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x2048, .f32⟩
  | .hbm, ⟨2, _⟩ => ⟨S2048x10000, .f32⟩
  | .hbm, ⟨3, _⟩ => ⟨S3, .f32⟩
  | .hbm, ⟨4, _⟩ => ⟨S2048x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S2048x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S3, .f32⟩
  | .hbm, ⟨22, _⟩ => ⟨S3, .f32⟩
  | .hbm, ⟨23, _⟩ => ⟨S3, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S3, .f32⟩
  | .hbm, ⟨28, _⟩ => ⟨S3, .f32⟩
  | .hbm, ⟨29, _⟩ => ⟨S1x10000x128, .f32⟩
  | .hbm, ⟨30, _⟩ => ⟨S1x10000x128, .f32⟩
  | .hbm, ⟨31, _⟩ => ⟨S1x10000x128, .f32⟩
  | .hbm, ⟨32, _⟩ => ⟨S3x10000x128, .f32⟩
  | .hbm, ⟨33, _⟩ => ⟨S3x1x1, .f32⟩
  | .hbm, ⟨34, _⟩ => ⟨S3x10000x128, .f32⟩
  | .hbm, ⟨35, _⟩ => ⟨S3x10000x128, .f32⟩
  | .hbm, ⟨36, _⟩ => ⟨S_, .f32⟩
  | .hbm, ⟨37, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call1_cst : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  bcast_S10000x128_S1x10000x128_1_2 : S10000x128.BroadcastsInDim S1x10000x128 (![1, 2] : Fin 2 → Fin S1x10000x128.rank)
  concatenates_S1x10000x128_S1x10000x128_S1x10000x128_S3x10000x128_d0 : Shape.Concatenates [S1x10000x128, S1x10000x128, S1x10000x128] S3x10000x128 0
  bcast_S3_S3x1x1_0 : S3.BroadcastsInDim S3x1x1 (![0] : Fin 1 → Fin S3x1x1.rank)
  bcast_S3x1x1_S3x10000x128_0_1_2 : S3x1x1.BroadcastsInDim S3x10000x128 (![0, 1, 2] : Fin 3 → Fin S3x10000x128.rank)
  reducesTo_S3x10000x128_S10000x128_d0 : S3x10000x128.ReducesTo [0] S10000x128
  dot_S2048x10000_S10000x128_S2048x128_1_0_0_1_n_n_wf : DotDims.WF S2048x10000 S10000x128 S2048x128 [1] [0] [0] [1] [] []
  dot_S10000x2048_S2048x128_S10000x128_1_0_0_1_n_n_wf : DotDims.WF S10000x2048 S2048x128 S10000x128 [1] [0] [0] [1] [] []

variable [Facts₀]

def dot_S2048x10000_S10000x128_S2048x128_1_0_0_1_n_n : DotDims S2048x10000 S10000x128 S2048x128 where
  lhsContracting := [1]
  rhsContracting := [0]
  lhsNonContracting := [0]
  rhsNonContracting := [1]
  lhsBatch := []
  rhsBatch := []
  wf := dot_S2048x10000_S10000x128_S2048x128_1_0_0_1_n_n_wf
def dot_S10000x2048_S2048x128_S10000x128_1_0_0_1_n_n : DotDims S10000x2048 S2048x128 S10000x128 where
  lhsContracting := [1]
  rhsContracting := [0]
  lhsNonContracting := [0]
  rhsNonContracting := [1]
  lhsBatch := []
  rhsBatch := []
  wf := dot_S10000x2048_S2048x128_S10000x128_1_0_0_1_n_n_wf

class Facts : Prop extends Facts₀ where

variable [Facts]
-- ==== Proof.HyperConv.lean ====
/-
  The mathematics both programs compute, stated once over the extended reals, index by index.

  A directed hypergraph convolution over dense incidence matrices. Nodes carry embeddings `x : [10000, 128]`;
  `tar : [2048, 10000]` gathers node embeddings onto the 2048 hyperedges (`toHedges`: row `h`, column `c` is the sum
  over nodes `n` of `tar (h, n) · x (n, c)`), `src : [10000, 2048]` sends the hyperedge messages back to the nodes
  (`toNodes`). One layer is `x' = max (src · (tar · x)) 0 + x`. Two layers give `x₀, x₁, x₂`, and the result is their
  sum weighted by the softmax of three attention logits `a`:
  `w k = exp (a k - max a) / ∑ j, exp (a j - max a)`.

  The two programs differ only in how the last step is arranged. With `r = max (src · (tar · x₁)) 0` (so
  `x₂ = r + x₁`), one computes `w 0 · x₀ + (w 1 + w 2) · x₁ + w 2 · r` (`mixFused`), the other
  `0 + ∑ k, xₖ · w k` (`mixStacked`). On the extended reals these agree because the weights of FINITE logits are
  non-negative reals: multiplication by a non-negative real distributes over every sum, infinite summands included,
  and a sum of two non-negative factors distributes over any one multiplicand (`mixFused_eq_mixStacked`).
-/
import Idealize.ShloMosaic.PureOps.Ideal
import Idealize.ShloMosaic.Lib.ValueIdx

noncomputable section

namespace Cert.HyperConv

open Idealize.ShloMosaic Idealize.ShloMosaic.ValueIdx
open scoped BigOperators

/-- Node embeddings: 10000 nodes, 128 features. -/
abbrev Nodes : Shape := ⟨2, ![10000, 128]⟩
/-- Hyperedge messages: 2048 hyperedges, 128 features. -/
abbrev Hedges : Shape := ⟨2, ![2048, 128]⟩
/-- The node-by-hyperedge incidence matrix that sends messages back to the nodes. -/
abbrev SrcInc : Shape := ⟨2, ![10000, 2048]⟩
/-- The hyperedge-by-node incidence matrix that gathers embeddings onto the hyperedges. -/
abbrev TarInc : Shape := ⟨2, ![2048, 10000]⟩

/-- `tar · x`: hyperedge `h`'s message in feature `c` is `∑ n, tar (h, n) · x (n, c)`. -/
def toHedges (tar : TarInc.Idx → EReal) (x : Nodes.Idx → EReal) : Hedges.Idx → EReal :=
  fun j => ∑ n : Fin 10000, tar (ix2 ⟨(j 0).val, idx2_lt0 j⟩ n) * x (ix2 n ⟨(j 1).val, idx2_lt1 j⟩)

/-- `src · t`: node `n`'s incoming message in feature `c` is `∑ h, src (n, h) · t (h, c)`. -/
def toNodes (src : SrcInc.Idx → EReal) (t : Hedges.Idx → EReal) : Nodes.Idx → EReal :=
  fun i => ∑ h : Fin 2048, src (ix2 ⟨(i 0).val, idx2_lt0 i⟩ h) * t (ix2 h ⟨(i 1).val, idx2_lt1 i⟩)

/-- The rectified node messages `max (src · t) 0`. -/
def rectified (src : SrcInc.Idx → EReal) (t : Hedges.Idx → EReal) : Nodes.Idx → EReal :=
  fun i => max (toNodes src t i) 0

/-- One layer's update from the hyperedge messages `t`: `max (src · t) 0 + x`. -/
def update (src : SrcInc.Idx → EReal) (t : Hedges.Idx → EReal) (x : Nodes.Idx → EReal) : Nodes.Idx → EReal :=
  fun i => rectified src t i + x i

/-- One layer: `x ↦ max (src · (tar · x)) 0 + x`. -/
def layer (src : SrcInc.Idx → EReal) (tar : TarInc.Idx → EReal) (x : Nodes.Idx → EReal) : Nodes.Idx → EReal :=
  update src (toHedges tar x) x

/-! ## The attention weights: the softmax of three logits -/

/-- The largest logit (the fold of `max` from `-∞`). -/
def logitMax (a : Fin 3 → EReal) : EReal := (Finset.univ : Finset (Fin 3)).fold max ⊥ a
/-- `exp (a k - max a)`. -/
def shiftedExp (a : Fin 3 → EReal) (k : Fin 3) : EReal := Ideal.exp (a k - logitMax a)
/-- `∑ j, exp (a j - max a)`. -/
def expSum (a : Fin 3 → EReal) : EReal := ∑ k : Fin 3, shiftedExp a k
/-- The softmax weight of logit `k`. -/
def weight (a : Fin 3 → EReal) (k : Fin 3) : EReal := Ideal.div (shiftedExp a k) (expSum a)

/-! ## The two arrangements of the weighted sum -/

/-- `w 0 · x₀ + (w 1 + w 2) · x₁ + w 2 · r`, where `r` is the second layer's rectified message. -/
def mixFused (a : Fin 3 → EReal) (x0 x1 r : Nodes.Idx → EReal) : Nodes.Idx → EReal :=
  fun i => weight a 0 * x0 i + (weight a 1 + weight a 2) * x1 i + weight a 2 * r i

/-- `0 + ∑ k, xₖ · w k` over the three stacked embeddings. -/
def mixStacked (a : Fin 3 → EReal) (xs : Fin 3 → Nodes.Idx → EReal) : Nodes.Idx → EReal :=
  fun i => 0 + ∑ k : Fin 3, xs k i * weight a k

/-- The three embeddings `x₀, x₁, x₂` stacked. -/
def stack (x0 x1 x2 : Nodes.Idx → EReal) : Fin 3 → Nodes.Idx → EReal
  | ⟨0, _⟩ => x0
  | ⟨1, _⟩ => x1
  | ⟨2, _⟩ => x2

/-- The whole computation in the fused arrangement, from the four inputs. -/
def fusedResult (src : SrcInc.Idx → EReal) (tar : TarInc.Idx → EReal) (a : Fin 3 → EReal) (x0 : Nodes.Idx → EReal) :
    Nodes.Idx → EReal :=
  mixFused a x0 (layer src tar x0) (rectified src (toHedges tar (layer src tar x0)))

/-- The whole computation in the stacked arrangement, from the four inputs. -/
def stackedResult (src : SrcInc.Idx → EReal) (tar : TarInc.Idx → EReal) (a : Fin 3 → EReal) (x0 : Nodes.Idx → EReal) :
    Nodes.Idx → EReal :=
  mixStacked a (stack x0 (layer src tar x0) (layer src tar (layer src tar x0)))

end Cert.HyperConv

end
-- ==== Proof.HedgeStep0.lean ====
/-
  The first gathering onto the hyperedges, as the run leaves it. The grid has 8 points; point `t` reads rows
  `256 t … 256 t + 255` of the incidence matrix `tar` and ALL of the node embeddings `x`, and writes back the
  `[256, 128]` block of `tar · x` on those rows. The 8 row blocks tile the `[2048, 128]` result, so after the last
  point the array holds `toHedges tar x` of the two arrays as the region found them.
-/
import proofs.«153165_g26070451486833_cont_8to1_1708_2_alg».proof.Proof.Gen.KernelIdeal.Frame
import proofs.«153165_g26070451486833_cont_8to1_1708_2_alg».proof.Proof.HyperConv
import Idealize.ShloMosaic.Lib.Pipeline.Value
import Idealize.ShloMosaic.PureOps.Ideal.Laws

set_option maxRecDepth 16384

noncomputable section

namespace Cert.KernelIdeal.HedgeStep0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The contraction's operand indices, axis by axis -/

theorem lhs_row (i : S256x128.Idx) (k : dot_S256x10000_S10000x128_S256x128_1_0_0_1_n_n.contr.Idx) :
    (dot_S256x10000_S10000x128_S256x128_1_0_0_1_n_n.lhsIdx i k 0).val = (i 0).val := by
  unfold DotDims.lhsIdx
  rw [dif_neg (show ¬(0 : Fin S256x10000.rank) ∈ dot_S256x10000_S10000x128_S256x128_1_0_0_1_n_n.lhsBatch by decide), dif_pos (show (0 : Fin S256x10000.rank) ∈ dot_S256x10000_S10000x128_S256x128_1_0_0_1_n_n.lhsNonContracting by decide)]
  rfl
theorem lhs_col (i : S256x128.Idx) (k : dot_S256x10000_S10000x128_S256x128_1_0_0_1_n_n.contr.Idx) :
    (dot_S256x10000_S10000x128_S256x128_1_0_0_1_n_n.lhsIdx i k 1).val = (k ⟨0, by decide⟩).val :=
  dot_S256x10000_S10000x128_S256x128_1_0_0_1_n_n.lhsIdx_val_of_single rfl i k
theorem rhs_row (i : S256x128.Idx) (k : dot_S256x10000_S10000x128_S256x128_1_0_0_1_n_n.contr.Idx) :
    (dot_S256x10000_S10000x128_S256x128_1_0_0_1_n_n.rhsIdx i k 0).val = (k ⟨0, by decide⟩).val :=
  dot_S256x10000_S10000x128_S256x128_1_0_0_1_n_n.rhsIdx_val_of_single rfl i k
theorem rhs_col (i : S256x128.Idx) (k : dot_S256x10000_S10000x128_S256x128_1_0_0_1_n_n.contr.Idx) :
    (dot_S256x10000_S10000x128_S256x128_1_0_0_1_n_n.rhsIdx i k 1).val = (i 1).val := by
  unfold DotDims.rhsIdx
  rw [dif_neg (show ¬(1 : Fin S10000x128.rank) ∈ dot_S256x10000_S10000x128_S256x128_1_0_0_1_n_n.rhsBatch by decide), dif_pos (show (1 : Fin S10000x128.rank) ∈ dot_S256x10000_S10000x128_S256x128_1_0_0_1_n_n.rhsNonContracting by decide)]
  rfl

/-- One entry of the block product: row `p` of the incidence block against column `q` of the embeddings. -/
theorem product_apply (a : Vec Ideal S256x10000 .f32) (b : Vec Ideal S10000x128 .f32) (p : Fin 256) (q : Fin 128) :
    k0_pay1 (F := Ideal) a b (ix2 p q) = ∑ n : Fin 10000, a (ix2 p n) * b (ix2 n q) := by
  unfold k0_pay1
  simp only [matmul]
  rw [Ideal.matmul_constant_zero_apply, ← Equiv.sum_comp (ValueIdx.contrEquiv1 dot_S256x10000_S10000x128_S256x128_1_0_0_1_n_n 10000 rfl rfl).symm]
  refine Finset.sum_congr rfl fun n _ => ?_
  have hn := ValueIdx.contrEquiv1_symm_val dot_S256x10000_S10000x128_S256x128_1_0_0_1_n_n 10000 rfl rfl n
  have el : dot_S256x10000_S10000x128_S256x128_1_0_0_1_n_n.lhsIdx (ix2 p q) ((ValueIdx.contrEquiv1 dot_S256x10000_S10000x128_S256x128_1_0_0_1_n_n 10000 rfl rfl).symm n) = ix2 p n := funext fun d => Fin.ext (by
    match d with
    | ⟨0, _⟩ => exact lhs_row _ _
    | ⟨1, _⟩ => exact (lhs_col _ _).trans hn)
  have er : dot_S256x10000_S10000x128_S256x128_1_0_0_1_n_n.rhsIdx (ix2 p q) ((ValueIdx.contrEquiv1 dot_S256x10000_S10000x128_S256x128_1_0_0_1_n_n 10000 rfl rfl).symm n) = ix2 n q := funext fun d => Fin.ext (by
    match d with
    | ⟨0, _⟩ => exact (rhs_row _ _).trans hn
    | ⟨1, _⟩ => exact rhs_col _ _)
  rw [el, er]

/-! ## From the row blocks to the array -/

theorem zero_offsets : (![0, 0] : Fin 2 → Nat) = fun _ => 0 := funext fun a => by fin_cases a <;> rfl

/-- The printed index maps over the 8 points: the incidence rows move with the output rows, point `t` at row block
    `t`; the embeddings sit whole at block 0; no window moves along its second axis. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Every row block is some point's. -/
theorem row_block_onto : ∀ r : Fin 8, ∃ t : Fin cfg0.N, win0_2.index t (0 : Fin 2) = r.val ∧ win0_2.index t (1 : Fin 2) = 0 :=
  (by decide +kernel : ∀ r : Fin 8, ∃ t : Fin grid0.N, win0_2.index t (0 : Fin 2) = r.val ∧ win0_2.index t (1 : Fin 2) = 0)

/-- What point `t` writes back is block `t` of `tar · x` of the two arrays as entered. -/
theorem written_block (c : Dev nD) (t : Fin cfg0.N) :
    (dat0 (F := Ideal) V c).flushed 2 t = ((cfg0.win 2).blk t).view.read (Elt Ideal)
      (HyperConv.toHedges (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zero_offsets]
  simp only [View.ld_unit_zero (S := S256x10000) zero_offsets, View.ld_unit_zero (S := S10000x128) zero_offsets]
  obtain ⟨e0, e1, e2, e3, e4, e5⟩ := block_indices t
  funext j
  obtain ⟨p, q, rfl⟩ : ∃ (p : Fin 256) (q : Fin 128), j = ix2 p q := ⟨j 0, j 1, eq_ix2 j⟩
  show k0_pay1 (F := Ideal) (iblk0 V c 0 t) (iblk0 V c 1 t) (ix2 p q)
    = HyperConv.toHedges (V c (Pipeline.arrRef spec0 0)) (V c (Pipeline.arrRef spec0 1)) (((cfg0.win 2).blk t).view.emb (ix2 p q))
  rw [product_apply]
  unfold HyperConv.toHedges
  refine Finset.sum_congr rfl fun n _ => ?_
  have h0 : ((cfg0.win 0).blk t).view.emb (ix2 p n)
      = ix2 ⟨((((cfg0.win 2).blk t).view.emb (ix2 p q)) 0).val, idx2_lt0 _⟩ n := by
    funext a; apply Fin.ext
    match a with
    | ⟨0, _⟩ => show win0_0.index t (0 : Fin 2) * 256 + 1 * p.val = win0_2.index t (0 : Fin 2) * 256 + 1 * p.val; omega
    | ⟨1, _⟩ => show win0_0.index t (1 : Fin 2) * 10000 + 1 * n.val = n.val; omega
  have h1 : ((cfg0.win 1).blk t).view.emb (ix2 n q)
      = ix2 n ⟨((((cfg0.win 2).blk t).view.emb (ix2 p q)) 1).val, idx2_lt1 _⟩ := by
    funext a; apply Fin.ext
    match a with
    | ⟨0, _⟩ => show win0_1.index t (0 : Fin 2) * 10000 + 1 * n.val = n.val; omega
    | ⟨1, _⟩ => show win0_1.index t (1 : Fin 2) * 128 + 1 * q.val = win0_2.index t (1 : Fin 2) * 128 + 1 * q.val; omega
  exact congrArg₂ (fun x y : EReal => x * y)
    (congrArg (V c (Pipeline.arrRef spec0 0)) h0) (congrArg (V c (Pipeline.arrRef spec0 1)) h1)

/-- An index of the array is in point `t`'s block iff each coordinate is in the block's range on its axis. -/
theorem mem_row_block (t : Fin cfg0.N) (i : S2048x128.Idx) :
    i ∈ ((cfg0.win 2).blk t).view.set ↔ ∀ a : Fin 2, win0_2.index t a * S256x128.size a ≤ (i a).val ∧ (i a).val < win0_2.index t a * S256x128.size a + S256x128.size a := by
  show i ∈ ((View.whole main_v1).slice (win0_2.rect t)).set ↔ _
  rw [View.set_slice_whole, Rect.mem_set_unit]
  exact Iff.rfl

/-- The 8 row blocks tile the array: row `r` is in the block of point `r / 256`. -/
theorem rows_covered (i : S2048x128.Idx) :
    ∃ t : Fin cfg0.N, (cfg0.win 2).flush t = true ∧ i ∈ ((cfg0.win 2).blk t).view.set := by
  have hi0 : (i 0).val < 2048 := (i 0).isLt
  have hi1 : (i 1).val < 128 := (i 1).isLt
  obtain ⟨t, q0, q1⟩ := row_block_onto ⟨(i 0).val / 256, by omega⟩
  have q0' : win0_2.index t (0 : Fin 2) = (i 0).val / 256 := q0
  refine ⟨t, flush0_2 t, ?_⟩
  rw [mem_row_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 128 ≤ (i 1).val ∧ (i 1).val < win0_2.index t (1 : Fin 2) * 128 + 128; omega

/-- After region 0 its output array is `tar · x` of its two input arrays as entered. -/
theorem final (c : Dev nD) :
    (dat0 (F := Ideal) V c).arrAt 2 cfg0.N
      = HyperConv.toHedges (V c (Pipeline.arrRef spec0 0)) (V c (Pipeline.arrRef spec0 1)) := by
  exact (dat0 (F := Ideal) V c).arrAt_eq_of_cover 2 _ (fun t _ => written_block V c t) rows_covered

end Cert.KernelIdeal.HedgeStep0

end
-- ==== Proof.NodeStep.lean ====
/-
  The first layer's node update, as the run leaves it. The grid has 10 points; point `t` reads rows
  `1000 t … 1000 t + 999` of `src` and of the previous embeddings `x`, and ALL of the hyperedge messages `t₁`, and
  writes back the `[1000, 128]` block of `max (src · t₁) 0 + x` on those rows. The 10 row blocks tile `[10000, 128]`.
-/
import proofs.«153165_g26070451486833_cont_8to1_1708_2_alg».proof.Proof.Gen.KernelIdeal.Frame
import proofs.«153165_g26070451486833_cont_8to1_1708_2_alg».proof.Proof.HyperConv
import Idealize.ShloMosaic.Lib.Pipeline.Value
import Idealize.ShloMosaic.PureOps.Ideal.Laws

set_option maxRecDepth 16384

noncomputable section

namespace Cert.KernelIdeal.NodeStep

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! ## The block product's operand indices -/

theorem lhs_row (i : S1000x128.Idx) (q : dot_S1000x2048_S2048x128_S1000x128_1_0_0_1_n_n.contr.Idx) :
    (dot_S1000x2048_S2048x128_S1000x128_1_0_0_1_n_n.lhsIdx i q 0).val = (i 0).val := by
  unfold DotDims.lhsIdx
  rw [dif_neg (show ¬(0 : Fin S1000x2048.rank) ∈ dot_S1000x2048_S2048x128_S1000x128_1_0_0_1_n_n.lhsBatch by decide), dif_pos (show (0 : Fin S1000x2048.rank) ∈ dot_S1000x2048_S2048x128_S1000x128_1_0_0_1_n_n.lhsNonContracting by decide)]
  rfl
theorem lhs_col (i : S1000x128.Idx) (q : dot_S1000x2048_S2048x128_S1000x128_1_0_0_1_n_n.contr.Idx) :
    (dot_S1000x2048_S2048x128_S1000x128_1_0_0_1_n_n.lhsIdx i q 1).val = (q ⟨0, by decide⟩).val :=
  dot_S1000x2048_S2048x128_S1000x128_1_0_0_1_n_n.lhsIdx_val_of_single rfl i q
theorem rhs_row (i : S1000x128.Idx) (q : dot_S1000x2048_S2048x128_S1000x128_1_0_0_1_n_n.contr.Idx) :
    (dot_S1000x2048_S2048x128_S1000x128_1_0_0_1_n_n.rhsIdx i q 0).val = (q ⟨0, by decide⟩).val :=
  dot_S1000x2048_S2048x128_S1000x128_1_0_0_1_n_n.rhsIdx_val_of_single rfl i q
theorem rhs_col (i : S1000x128.Idx) (q : dot_S1000x2048_S2048x128_S1000x128_1_0_0_1_n_n.contr.Idx) :
    (dot_S1000x2048_S2048x128_S1000x128_1_0_0_1_n_n.rhsIdx i q 1).val = (i 1).val := by
  unfold DotDims.rhsIdx
  rw [dif_neg (show ¬(1 : Fin S2048x128.rank) ∈ dot_S1000x2048_S2048x128_S1000x128_1_0_0_1_n_n.rhsBatch by decide), dif_pos (show (1 : Fin S2048x128.rank) ∈ dot_S1000x2048_S2048x128_S1000x128_1_0_0_1_n_n.rhsNonContracting by decide)]
  rfl

/-- The block product into the zero block: entry `(p, q)` is `∑ h, a (p, h) · b (h, q)`. -/
theorem blockProduct_apply (a : FVec Ideal S1000x2048 .f32) (b : FVec Ideal S2048x128 .f32) (p : Fin 1000) (q : Fin 128) :
    FloatOps.matmul dot_S1000x2048_S2048x128_S1000x128_1_0_0_1_n_n none a b (constant (F := Ideal) S1000x128 .f32 0x00000000#32) (ix2 p q)
      = ∑ h : Fin 2048, a (ix2 p h) * b (ix2 h q) := by
  rw [Ideal.matmul_constant_zero_apply, ← Equiv.sum_comp (ValueIdx.contrEquiv1 dot_S1000x2048_S2048x128_S1000x128_1_0_0_1_n_n 2048 rfl rfl).symm]
  refine Finset.sum_congr rfl fun k _ => ?_
  have hk := ValueIdx.contrEquiv1_symm_val dot_S1000x2048_S2048x128_S1000x128_1_0_0_1_n_n 2048 rfl rfl k
  have el : dot_S1000x2048_S2048x128_S1000x128_1_0_0_1_n_n.lhsIdx (ix2 p q) ((ValueIdx.contrEquiv1 dot_S1000x2048_S2048x128_S1000x128_1_0_0_1_n_n 2048 rfl rfl).symm k) = ix2 p k := funext fun a => Fin.ext (by
    match a with
    | ⟨0, _⟩ => exact lhs_row _ _
    | ⟨1, _⟩ => exact (lhs_col _ _).trans hk)
  have er : dot_S1000x2048_S2048x128_S1000x128_1_0_0_1_n_n.rhsIdx (ix2 p q) ((ValueIdx.contrEquiv1 dot_S1000x2048_S2048x128_S1000x128_1_0_0_1_n_n 2048 rfl rfl).symm k) = ix2 k q := funext fun a => Fin.ext (by
    match a with
    | ⟨0, _⟩ => exact (rhs_row _ _).trans hk
    | ⟨1, _⟩ => exact rhs_col _ _)
  rw [el, er]

/-- The body's stored block at entry `(p, q)`: `max (∑ h, a (p, h) · b (h, q)) 0 + x (p, q)`. -/
theorem blockUpdate_apply (a : Vec Ideal S1000x2048 .f32) (b : Vec Ideal S2048x128 .f32) (x : Vec Ideal S1000x128 .f32)
    (p : Fin 1000) (q : Fin 128) :
    k1_pay1 (F := Ideal) a b x (ix2 p q) = max (∑ h : Fin 2048, a (ix2 p h) * b (ix2 h q)) 0 + x (ix2 p q) := by
  unfold k1_pay1
  rw [shapeCast_self]
  show max (FloatOps.matmul dot_S1000x2048_S2048x128_S1000x128_1_0_0_1_n_n none a b (constant (F := Ideal) S1000x128 .f32 0x00000000#32) (ix2 p q)) (Ideal.ofBits .f32 0x00000000#32) + x (ix2 p q) = _
  rw [blockProduct_apply, Ideal.ofBits_zero_f32]

/-! ## The update from reads at the right places -/

/-- `max (src · t₁) 0 + x` at node index `i`, computed from entries read at row `i 0` of `src`, column `i 1` of
    `t₁`, and index `i` of `x`, wherever those entries' indices come from. -/
theorem update_of_reads (src : HyperConv.SrcInc.Idx → EReal) (t₁ : HyperConv.Hedges.Idx → EReal) (x : HyperConv.Nodes.Idx → EReal)
    (i : HyperConv.Nodes.Idx) (r : Fin 2048 → HyperConv.SrcInc.Idx) (m : Fin 2048 → HyperConv.Hedges.Idx) (i' : HyperConv.Nodes.Idx)
    (hr0 : ∀ h, (r h 0).val = (i 0).val) (hr1 : ∀ h, (r h 1).val = h.val)
    (hm0 : ∀ h, (m h 0).val = h.val) (hm1 : ∀ h, (m h 1).val = (i 1).val)
    (hx0 : (i' 0).val = (i 0).val) (hx1 : (i' 1).val = (i 1).val) :
    max (∑ h : Fin 2048, src (r h) * t₁ (m h)) 0 + x i' = HyperConv.update src t₁ x i := by
  have er : ∀ h, r h = ix2 ⟨(i 0).val, idx2_lt0 i⟩ h := fun h => funext fun a => Fin.ext (by
    match a with
    | ⟨0, _⟩ => exact hr0 h
    | ⟨1, _⟩ => exact hr1 h)
  have em : ∀ h, m h = ix2 h ⟨(i 1).val, idx2_lt1 i⟩ := fun h => funext fun a => Fin.ext (by
    match a with
    | ⟨0, _⟩ => exact hm0 h
    | ⟨1, _⟩ => exact hm1 h)
  have ex : i' = i := funext fun a => Fin.ext (by
    match a with
    | ⟨0, _⟩ => exact hx0
    | ⟨1, _⟩ => exact hx1)
  unfold HyperConv.update HyperConv.rectified HyperConv.toNodes
  rw [ex]
  exact congrArg (fun s => max s 0 + x i) (Finset.sum_congr rfl fun h _ => by rw [er h, em h])

/-! ## Where each window's block sits -/

theorem zeroOffsets : (![0, 0] : Fin 2 → Nat) = fun _ => 0 := funext fun a => by fin_cases a <;> rfl

/-- The printed block indices over the grid: the incidence rows' and the previous embeddings' windows move with the
    output window along the rows, the hyperedge messages' window stays on its one block, and no window moves along the
    columns. The output window's row block stays within the 10 row blocks. -/
theorem blockIndex_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = win1_3.index t (0 : Fin 2)
    ∧ win1_2.index t (1 : Fin 2) = 0
    ∧ win1_3.index t (0 : Fin 2) ≤ 9
    ∧ win1_3.index t (1 : Fin 2) = 0 :=
  (by decide +kernel : ∀ t : Fin grid1.N, _)

/-- Every one of the 10 row blocks is some point's output block. -/
theorem rowBlock_onto : ∀ (r : Fin 10), ∃ t : Fin cfg1.N, win1_3.index t = ![r.val, 0] :=
  (by decide +kernel : ∀ (r : Fin 10), ∃ t : Fin grid1.N, win1_3.index t = ![r.val, 0])

/-- WHAT POINT `t` WRITES BACK is block `t` of `max (src · t₁) 0 + x` of the three input arrays as the region finds them. -/
theorem flushed_eq_update (c : Dev nD) (t : Fin cfg1.N) :
    (dat1 (F := Ideal) V c).flushed 3 t = ((cfg1.win 3).blk t).view.read (Elt Ideal)
      (HyperConv.update (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero zeroOffsets]
  simp only [View.ld_unit_zero (S := S1000x2048) zeroOffsets, View.ld_unit_zero (S := S2048x128) zeroOffsets, View.ld_unit_zero (S := S1000x128) zeroOffsets]
  obtain ⟨e0, e1, e2, e3, e4, e5, e6, e7⟩ := blockIndex_facts t
  funext j
  obtain ⟨p, q, rfl⟩ : ∃ (p : Fin 1000) (q : Fin 128), j = ix2 p q := ⟨j 0, j 1, eq_ix2 j⟩
  refine (blockUpdate_apply _ _ _ p q).trans ?_
  refine update_of_reads (V c (Pipeline.arrRef spec1 0)) (V c (Pipeline.arrRef spec1 1)) (V c (Pipeline.arrRef spec1 2))
    (((cfg1.win 3).blk t).view.emb (ix2 p q)) (fun h => ((cfg1.win 0).blk t).view.emb (ix2 p h))
    (fun h => ((cfg1.win 1).blk t).view.emb (ix2 h q)) (((cfg1.win 2).blk t).view.emb (ix2 p q)) ?_ ?_ ?_ ?_ ?_ ?_
  · intro h
    show win1_0.index t (0 : Fin 2) * 1000 + 1 * p.val = win1_3.index t (0 : Fin 2) * 1000 + 1 * p.val
    omega
  · intro h
    show win1_0.index t (1 : Fin 2) * 2048 + 1 * h.val = h.val
    omega
  · intro h
    show win1_1.index t (0 : Fin 2) * 2048 + 1 * h.val = h.val
    omega
  · intro h
    show win1_1.index t (1 : Fin 2) * 128 + 1 * q.val = win1_3.index t (1 : Fin 2) * 128 + 1 * q.val
    omega
  · show win1_2.index t (0 : Fin 2) * 1000 + 1 * p.val = win1_3.index t (0 : Fin 2) * 1000 + 1 * p.val
    omega
  · show win1_2.index t (1 : Fin 2) * 128 + 1 * q.val = win1_3.index t (1 : Fin 2) * 128 + 1 * q.val
    omega

/-! ## The output blocks tile the array -/

/-- An index of the array is in point `t`'s output block iff each coordinate is in the block's range on its axis. -/
theorem mem_outputBlock (t : Fin cfg1.N) (i : S10000x128.Idx) :
    i ∈ ((cfg1.win 3).blk t).view.set ↔ ∀ a : Fin 2, win1_3.index t a * S1000x128.size a ≤ (i a).val ∧ (i a).val < win1_3.index t a * S1000x128.size a + S1000x128.size a := by
  show i ∈ ((View.whole main_v2).slice (win1_3.rect t)).set ↔ _
  rw [View.set_slice_whole, Rect.mem_set_unit]
  exact Iff.rfl

/-- Every index of the array is in some point's output block: row `r` lies in row block `r / 1000`. -/
theorem outputBlocks_cover (i : S10000x128.Idx) :
    ∃ t : Fin cfg1.N, (cfg1.win 3).flush t = true ∧ i ∈ ((cfg1.win 3).blk t).view.set := by
  have hi0 : (i 0).val < 10000 := (i 0).isLt
  have hi1 : (i 1).val < 128 := (i 1).isLt
  obtain ⟨t, ht⟩ := rowBlock_onto ⟨(i 0).val / 1000, by omega⟩
  have q0 : win1_3.index t (0 : Fin 2) = (i 0).val / 1000 := congrFun ht 0
  have q1 : win1_3.index t (1 : Fin 2) = 0 := congrFun ht 1
  refine ⟨t, flush1_3 t, ?_⟩
  rw [mem_outputBlock]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 128 ≤ (i 1).val ∧ (i 1).val < win1_3.index t (1 : Fin 2) * 128 + 128; omega

/-- After region 1 its output array is `max (src · t) 0 + x` of its three input arrays as entered. -/
theorem final (c : Dev nD) :
    (dat1 (F := Ideal) V c).arrAt 3 cfg1.N
      = HyperConv.update (V c (Pipeline.arrRef spec1 0)) (V c (Pipeline.arrRef spec1 1)) (V c (Pipeline.arrRef spec1 2)) := by
  exact (dat1 (F := Ideal) V c).arrAt_eq_of_cover 3 _ (fun t _ => flushed_eq_update V c t) outputBlocks_cover

end Cert.KernelIdeal.NodeStep

end
-- ==== Proof.HedgeStep2.lean ====
/-
  The second gathering onto the hyperedges (the same kernel function launched again, on the first layer's node
  embeddings): point `t` of 8 writes the `[256, 128]` row block `256 t …` of `tar · x₁`; the blocks tile the result.
-/
import proofs.«153165_g26070451486833_cont_8to1_1708_2_alg».proof.Proof.Gen.KernelIdeal.Frame
import proofs.«153165_g26070451486833_cont_8to1_1708_2_alg».proof.Proof.HyperConv
import Idealize.ShloMosaic.Lib.Pipeline.Value
import Idealize.ShloMosaic.PureOps.Ideal.Laws

set_option maxRecDepth 16384

noncomputable section

namespace Cert.KernelIdeal.HedgeStep2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The contraction's operand indices, axis by axis -/

theorem lhs_row (i : S256x128.Idx) (k : dot_S256x10000_S10000x128_S256x128_1_0_0_1_n_n.contr.Idx) :
    (dot_S256x10000_S10000x128_S256x128_1_0_0_1_n_n.lhsIdx i k 0).val = (i 0).val := by
  unfold DotDims.lhsIdx
  rw [dif_neg (show ¬(0 : Fin S256x10000.rank) ∈ dot_S256x10000_S10000x128_S256x128_1_0_0_1_n_n.lhsBatch by decide), dif_pos (show (0 : Fin S256x10000.rank) ∈ dot_S256x10000_S10000x128_S256x128_1_0_0_1_n_n.lhsNonContracting by decide)]
  rfl
theorem lhs_col (i : S256x128.Idx) (k : dot_S256x10000_S10000x128_S256x128_1_0_0_1_n_n.contr.Idx) :
    (dot_S256x10000_S10000x128_S256x128_1_0_0_1_n_n.lhsIdx i k 1).val = (k ⟨0, by decide⟩).val :=
  dot_S256x10000_S10000x128_S256x128_1_0_0_1_n_n.lhsIdx_val_of_single rfl i k
theorem rhs_row (i : S256x128.Idx) (k : dot_S256x10000_S10000x128_S256x128_1_0_0_1_n_n.contr.Idx) :
    (dot_S256x10000_S10000x128_S256x128_1_0_0_1_n_n.rhsIdx i k 0).val = (k ⟨0, by decide⟩).val :=
  dot_S256x10000_S10000x128_S256x128_1_0_0_1_n_n.rhsIdx_val_of_single rfl i k
theorem rhs_col (i : S256x128.Idx) (k : dot_S256x10000_S10000x128_S256x128_1_0_0_1_n_n.contr.Idx) :
    (dot_S256x10000_S10000x128_S256x128_1_0_0_1_n_n.rhsIdx i k 1).val = (i 1).val := by
  unfold DotDims.rhsIdx
  rw [dif_neg (show ¬(1 : Fin S10000x128.rank) ∈ dot_S256x10000_S10000x128_S256x128_1_0_0_1_n_n.rhsBatch by decide), dif_pos (show (1 : Fin S10000x128.rank) ∈ dot_S256x10000_S10000x128_S256x128_1_0_0_1_n_n.rhsNonContracting by decide)]
  rfl

/-- One entry of the block product: row `p` of the incidence block against column `q` of the embeddings (which the
    body first casts to their own shape: the identity). -/
theorem product_apply (a : Vec Ideal S256x10000 .f32) (b : Vec Ideal S10000x128 .f32) (p : Fin 256) (q : Fin 128) :
    k2_pay1 (F := Ideal) a b (ix2 p q) = ∑ n : Fin 10000, a (ix2 p n) * b (ix2 n q) := by
  unfold k2_pay1
  simp only [matmul]
  rw [shapeCast_self]
  rw [Ideal.matmul_constant_zero_apply, ← Equiv.sum_comp (ValueIdx.contrEquiv1 dot_S256x10000_S10000x128_S256x128_1_0_0_1_n_n 10000 rfl rfl).symm]
  refine Finset.sum_congr rfl fun n _ => ?_
  have hn := ValueIdx.contrEquiv1_symm_val dot_S256x10000_S10000x128_S256x128_1_0_0_1_n_n 10000 rfl rfl n
  have el : dot_S256x10000_S10000x128_S256x128_1_0_0_1_n_n.lhsIdx (ix2 p q) ((ValueIdx.contrEquiv1 dot_S256x10000_S10000x128_S256x128_1_0_0_1_n_n 10000 rfl rfl).symm n) = ix2 p n := funext fun d => Fin.ext (by
    match d with
    | ⟨0, _⟩ => exact lhs_row _ _
    | ⟨1, _⟩ => exact (lhs_col _ _).trans hn)
  have er : dot_S256x10000_S10000x128_S256x128_1_0_0_1_n_n.rhsIdx (ix2 p q) ((ValueIdx.contrEquiv1 dot_S256x10000_S10000x128_S256x128_1_0_0_1_n_n 10000 rfl rfl).symm n) = ix2 n q := funext fun d => Fin.ext (by
    match d with
    | ⟨0, _⟩ => exact (rhs_row _ _).trans hn
    | ⟨1, _⟩ => exact rhs_col _ _)
  rw [el, er]

/-! ## From the row blocks to the array -/

theorem zero_offsets : (![0, 0] : Fin 2 → Nat) = fun _ => 0 := funext fun a => by fin_cases a <;> rfl

/-- The printed index maps over the 8 points: the incidence rows move with the output rows, point `t` at row block
    `t`; the embeddings sit whole at block 0; no window moves along its second axis. -/
theorem block_indices : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Every row block is some point's. -/
theorem row_block_onto : ∀ r : Fin 8, ∃ t : Fin cfg2.N, win2_2.index t (0 : Fin 2) = r.val ∧ win2_2.index t (1 : Fin 2) = 0 :=
  (by decide +kernel : ∀ r : Fin 8, ∃ t : Fin grid2.N, win2_2.index t (0 : Fin 2) = r.val ∧ win2_2.index t (1 : Fin 2) = 0)

/-- What point `t` writes back is block `t` of `tar · x` of the two arrays as entered. -/
theorem written_block (c : Dev nD) (t : Fin cfg2.N) :
    (dat2 (F := Ideal) V c).flushed 2 t = ((cfg2.win 2).blk t).view.read (Elt Ideal)
      (HyperConv.toHedges (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero zero_offsets]
  simp only [View.ld_unit_zero (S := S256x10000) zero_offsets, View.ld_unit_zero (S := S10000x128) zero_offsets]
  obtain ⟨e0, e1, e2, e3, e4, e5⟩ := block_indices t
  funext j
  obtain ⟨p, q, rfl⟩ : ∃ (p : Fin 256) (q : Fin 128), j = ix2 p q := ⟨j 0, j 1, eq_ix2 j⟩
  show k2_pay1 (F := Ideal) (iblk2 V c 0 t) (iblk2 V c 1 t) (ix2 p q)
    = HyperConv.toHedges (V c (Pipeline.arrRef spec2 0)) (V c (Pipeline.arrRef spec2 1)) (((cfg2.win 2).blk t).view.emb (ix2 p q))
  rw [product_apply]
  unfold HyperConv.toHedges
  refine Finset.sum_congr rfl fun n _ => ?_
  have h0 : ((cfg2.win 0).blk t).view.emb (ix2 p n)
      = ix2 ⟨((((cfg2.win 2).blk t).view.emb (ix2 p q)) 0).val, idx2_lt0 _⟩ n := by
    funext a; apply Fin.ext
    match a with
    | ⟨0, _⟩ => show win2_0.index t (0 : Fin 2) * 256 + 1 * p.val = win2_2.index t (0 : Fin 2) * 256 + 1 * p.val; omega
    | ⟨1, _⟩ => show win2_0.index t (1 : Fin 2) * 10000 + 1 * n.val = n.val; omega
  have h1 : ((cfg2.win 1).blk t).view.emb (ix2 n q)
      = ix2 n ⟨((((cfg2.win 2).blk t).view.emb (ix2 p q)) 1).val, idx2_lt1 _⟩ := by
    funext a; apply Fin.ext
    match a with
    | ⟨0, _⟩ => show win2_1.index t (0 : Fin 2) * 10000 + 1 * n.val = n.val; omega
    | ⟨1, _⟩ => show win2_1.index t (1 : Fin 2) * 128 + 1 * q.val = win2_2.index t (1 : Fin 2) * 128 + 1 * q.val; omega
  exact congrArg₂ (fun x y : EReal => x * y)
    (congrArg (V c (Pipeline.arrRef spec2 0)) h0) (congrArg (V c (Pipeline.arrRef spec2 1)) h1)

/-- An index of the array is in point `t`'s block iff each coordinate is in the block's range on its axis. -/
theorem mem_row_block (t : Fin cfg2.N) (i : S2048x128.Idx) :
    i ∈ ((cfg2.win 2).blk t).view.set ↔ ∀ a : Fin 2, win2_2.index t a * S256x128.size a ≤ (i a).val ∧ (i a).val < win2_2.index t a * S256x128.size a + S256x128.size a := by
  show i ∈ ((View.whole main_v3).slice (win2_2.rect t)).set ↔ _
  rw [View.set_slice_whole, Rect.mem_set_unit]
  exact Iff.rfl

/-- The 8 row blocks tile the array: row `r` is in the block of point `r / 256`. -/
theorem rows_covered (i : S2048x128.Idx) :
    ∃ t : Fin cfg2.N, (cfg2.win 2).flush t = true ∧ i ∈ ((cfg2.win 2).blk t).view.set := by
  have hi0 : (i 0).val < 2048 := (i 0).isLt
  have hi1 : (i 1).val < 128 := (i 1).isLt
  obtain ⟨t, q0, q1⟩ := row_block_onto ⟨(i 0).val / 256, by omega⟩
  have q0' : win2_2.index t (0 : Fin 2) = (i 0).val / 256 := q0
  refine ⟨t, flush2_2 t, ?_⟩
  rw [mem_row_block]
  intro a
  match a with
  | ⟨0, _⟩ => show win2_2.index t (0 : Fin 2) * 256 ≤ (i 0).val ∧ (i 0).val < win2_2.index t (0 : Fin 2) * 256 + 256; omega
  | ⟨1, _⟩ => show win2_2.index t (1 : Fin 2) * 128 ≤ (i 1).val ∧ (i 1).val < win2_2.index t (1 : Fin 2) * 128 + 128; omega

/-- After region 2 its output array is `tar · x` of its two input arrays as entered. -/
theorem final (c : Dev nD) :
    (dat2 (F := Ideal) V c).arrAt 2 cfg2.N
      = HyperConv.toHedges (V c (Pipeline.arrRef spec2 0)) (V c (Pipeline.arrRef spec2 1)) := by
  exact (dat2 (F := Ideal) V c).arrAt_eq_of_cover 2 _ (fun t _ => written_block V c t) rows_covered

end Cert.KernelIdeal.HedgeStep2

end
-- ==== Proof.MixStep.lean ====
/-
  The last region: the second layer's rectified message and the attention-weighted sum, fused. Point `t` of 10
  reads rows `1000 t …` of `src`, of `x₁` and of `x₀`, ALL of the hyperedge messages `t₂`, and the `[1, 3]` logits; it
  computes the three softmax weights from the logits, the rectified message `r = max (src · t₂) 0` on its rows, and
  writes back `w 0 · x₀ + (w 1 + w 2) · x₁ + w 2 · r`. The 10 row blocks tile `[10000, 128]`.
-/
import proofs.«153165_g26070451486833_cont_8to1_1708_2_alg».proof.Proof.Gen.KernelIdeal.Frame
import proofs.«153165_g26070451486833_cont_8to1_1708_2_alg».proof.Proof.HyperConv
import Idealize.ShloMosaic.Lib.Pipeline.Value
import Idealize.ShloMosaic.PureOps.Ideal.Laws

set_option maxRecDepth 16384

noncomputable section

namespace Cert.KernelIdeal.MixStep

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The three logits read off the `[1, 3]` array the region stages them from. -/
abbrev logits (c : Dev nD) : Fin 3 → EReal := fun k => (V c (Pipeline.arrRef spec3 4) : S1x3.Idx → EReal) (ix2 (0 : Fin 1) k)

/-! ## The three attention weights as the body computes them -/

/-- The flat view of the logits block reads the block's one row. -/
theorem flat_apply (v0 : Vec Ideal S1x3 .f32) (h : S1x3.ShapeCasts S3) (k : Fin 3) :
    (shapeCast S3 v0 h : FVec Ideal S3 .f32) (ix1 k) = v0 (ix2 (0 : Fin 1) k) := by
  refine shapeCast_apply v0 _ (ix1 k) (ix2 (0 : Fin 1) k) ?_
  rw [Shape.rowMajor_val_two, Shape.rowMajor_val_one]
  simp

/-- The row the three logits sit in, as a function of the logit's number. -/
abbrev row (v0 : Vec Ideal S1x3 .f32) : Fin 3 → EReal := fun k => v0 (ix2 (0 : Fin 1) k)

/-- The bit pattern the maximum starts from is minus infinity. -/
theorem negInf_eq : (FloatOps.ofBits (F := Ideal) .f32 0xFF800000#32 : EReal) = ⊥ := by
  show Ideal.ofBits .f32 0xFF800000#32 = ⊥
  simp [Ideal.ofBits, Ideal.ieee]

/-- The largest logit as the body takes it: the one-axis maximum of the block's row, read at its one index. -/
def bodyMax (v0 : Vec Ideal S1x3 .f32) : Ideal .f32 :=
  extractAt ![0, 0] (shapeCast S1x1 (multiReduction .maximumf [1] S1 (shapeCast S1x3 (shapeCast S3 v0 shapeCasts_S1x3_S3) shapeCasts_S3_S1x3)
    0xFF800000#32 reduces_S1x3_S1 (.inl rfl) rfl) shapeCasts_S1_S1x1) inpos_S1x1_p0_0

theorem bodyMax_eq (v0 : Vec Ideal S1x3 .f32) : bodyMax v0 = HyperConv.logitMax (row v0) := by
  unfold bodyMax
  rw [shapeCast_shapeCast]
  show (shapeCast S1x1 _ shapeCasts_S1_S1x1 : FVec Ideal S1x1 .f32) (ix2 (0 : Fin 1) (0 : Fin 1)) = _
  rw [shapeCast_apply _ shapeCasts_S1_S1x1 (ix2 (0 : Fin 1) (0 : Fin 1)) (ix1 (0 : Fin 1))
    (by rw [Shape.rowMajor_val_two, Shape.rowMajor_val_one]; rfl)]
  refine (Ideal.multiReduction_maximumf_single (φ := .f32) (s := S1x3) (t := S1) (a := 1) v0 _ reduces_S1x3_S1 _ _ (ix1 (0 : Fin 1))).trans ?_
  rw [negInf_eq]
  unfold HyperConv.logitMax
  refine congrArg (fun f => (Finset.univ : Finset (Fin 3)).fold max ⊥ f) (funext fun k => ?_)
  show v0 _ = v0 _
  refine congrArg v0 (funext fun a => Fin.ext ?_)
  match a with
  | ⟨0, _⟩ => rfl
  | ⟨1, _⟩ => rfl

/-- The exponentials of the logits less their maximum, as the body takes them. -/
def bodyExp (v0 : Vec Ideal S1x3 .f32) : FVec Ideal S3 .f32 :=
  exp (subf (shapeCast S3 v0 shapeCasts_S1x3_S3) (broadcast S3 (bodyMax v0)))

theorem bodyExp_apply (v0 : Vec Ideal S1x3 .f32) (k : Fin 3) : bodyExp v0 (ix1 k) = HyperConv.shiftedExp (row v0) k := by
  unfold bodyExp HyperConv.shiftedExp
  show Ideal.exp ((shapeCast S3 v0 shapeCasts_S1x3_S3 : FVec Ideal S3 .f32) (ix1 k) - bodyMax v0) = _
  rw [flat_apply, bodyMax_eq]

/-- Their sum as the body takes it: the one-axis sum of the exponentials, viewed as a row again, read at its one index. -/
def bodySum (v0 : Vec Ideal S1x3 .f32) : Ideal .f32 :=
  extractAt ![0, 0] (shapeCast S1x1 (multiReduction .add [1] S1 (shapeCast S1x3 (bodyExp v0) shapeCasts_S3_S1x3)
    0x00000000#32 reduces_S1x3_S1 (.inl rfl) rfl) shapeCasts_S1_S1x1) inpos_S1x1_p0_0

theorem bodySum_eq (v0 : Vec Ideal S1x3 .f32) : bodySum v0 = HyperConv.expSum (row v0) := by
  unfold bodySum
  show (shapeCast S1x1 _ shapeCasts_S1_S1x1 : FVec Ideal S1x1 .f32) (ix2 (0 : Fin 1) (0 : Fin 1)) = _
  rw [shapeCast_apply _ shapeCasts_S1_S1x1 (ix2 (0 : Fin 1) (0 : Fin 1)) (ix1 (0 : Fin 1))
    (by rw [Shape.rowMajor_val_two, Shape.rowMajor_val_one]; rfl)]
  refine (Ideal.multiReduction_add_single (φ := .f32) (s := S1x3) (t := S1) (a := 1) _ _ reduces_S1x3_S1 _ _ (ix1 (0 : Fin 1))).trans ?_
  unfold HyperConv.expSum
  show (∑ k : Fin 3, (shapeCast S1x3 (bodyExp v0) shapeCasts_S3_S1x3 : FVec Ideal S1x3 .f32) (reduces_S1x3_S1.lift (ix1 (0 : Fin 1)) k)) = _
  refine Finset.sum_congr rfl fun (k : Fin 3) _ => ?_
  refine Eq.trans ?_ (bodyExp_apply v0 k)
  refine shapeCast_apply (bodyExp v0) shapeCasts_S3_S1x3 _ (ix1 k) ?_
  rw [Shape.rowMajor_val_two, Shape.rowMajor_val_one]
  show k.val = 0 * 3 + k.val
  omega

/-- The three weights as the body takes them: each exponential over the sum. -/
def bodyWeights (v0 : Vec Ideal S1x3 .f32) : FVec Ideal S3 .f32 := divf (bodyExp v0) (broadcast S3 (bodySum v0))

theorem bodyWeights_apply (v0 : Vec Ideal S1x3 .f32) (k : Fin 3) : bodyWeights v0 (ix1 k) = HyperConv.weight (row v0) k := by
  unfold bodyWeights HyperConv.weight
  show Ideal.div (bodyExp v0 (ix1 k)) (bodySum v0) = _
  rw [bodyExp_apply, bodySum_eq]

/-! ## The message product at an index -/

theorem src_axis0 (i : S1000x128.Idx) (q : dot_S1000x2048_S2048x128_S1000x128_1_0_0_1_n_n.contr.Idx) :
    (dot_S1000x2048_S2048x128_S1000x128_1_0_0_1_n_n.lhsIdx i q 0).val = (i 0).val := by
  unfold DotDims.lhsIdx
  rw [dif_neg (show ¬(0 : Fin S1000x2048.rank) ∈ dot_S1000x2048_S2048x128_S1000x128_1_0_0_1_n_n.lhsBatch by decide),
    dif_pos (show (0 : Fin S1000x2048.rank) ∈ dot_S1000x2048_S2048x128_S1000x128_1_0_0_1_n_n.lhsNonContracting by decide)]
  rfl
theorem src_axis1 (i : S1000x128.Idx) (q : dot_S1000x2048_S2048x128_S1000x128_1_0_0_1_n_n.contr.Idx) :
    (dot_S1000x2048_S2048x128_S1000x128_1_0_0_1_n_n.lhsIdx i q 1).val = (q ⟨0, by decide⟩).val :=
  dot_S1000x2048_S2048x128_S1000x128_1_0_0_1_n_n.lhsIdx_val_of_single rfl i q
theorem msg_axis0 (i : S1000x128.Idx) (q : dot_S1000x2048_S2048x128_S1000x128_1_0_0_1_n_n.contr.Idx) :
    (dot_S1000x2048_S2048x128_S1000x128_1_0_0_1_n_n.rhsIdx i q 0).val = (q ⟨0, by decide⟩).val :=
  dot_S1000x2048_S2048x128_S1000x128_1_0_0_1_n_n.rhsIdx_val_of_single rfl i q
theorem msg_axis1 (i : S1000x128.Idx) (q : dot_S1000x2048_S2048x128_S1000x128_1_0_0_1_n_n.contr.Idx) :
    (dot_S1000x2048_S2048x128_S1000x128_1_0_0_1_n_n.rhsIdx i q 1).val = (i 1).val := by
  unfold DotDims.rhsIdx
  rw [dif_neg (show ¬(1 : Fin S2048x128.rank) ∈ dot_S1000x2048_S2048x128_S1000x128_1_0_0_1_n_n.rhsBatch by decide),
    dif_pos (show (1 : Fin S2048x128.rank) ∈ dot_S1000x2048_S2048x128_S1000x128_1_0_0_1_n_n.rhsNonContracting by decide)]
  rfl

/-- The block product of a row block of the incidence matrix with all the hyperedge messages, at row p and feature q, is the
    sum over the hyperedges. -/
theorem product_apply (a : Vec Ideal S1000x2048 .f32) (b : Vec Ideal S2048x128 .f32) (p : Fin 1000) (q : Fin 128) :
    (matmul (φ₁ := .f32) (φ₂ := .f32) dot_S1000x2048_S2048x128_S1000x128_1_0_0_1_n_n none a b (constant (F := Ideal) S1000x128 .f32 0x00000000#32)
        : FVec Ideal S1000x128 .f32) (ix2 p q)
      = ∑ h : Fin 2048, a (ix2 p h) * b (ix2 h q) := by
  simp only [matmul]
  rw [Ideal.matmul_constant_zero_apply,
    ← Equiv.sum_comp (ValueIdx.contrEquiv1 dot_S1000x2048_S2048x128_S1000x128_1_0_0_1_n_n 2048 rfl rfl).symm]
  refine Finset.sum_congr rfl fun h _ => ?_
  have hh := ValueIdx.contrEquiv1_symm_val dot_S1000x2048_S2048x128_S1000x128_1_0_0_1_n_n 2048 rfl rfl h
  have el : dot_S1000x2048_S2048x128_S1000x128_1_0_0_1_n_n.lhsIdx (ix2 p q)
      ((ValueIdx.contrEquiv1 dot_S1000x2048_S2048x128_S1000x128_1_0_0_1_n_n 2048 rfl rfl).symm h) = ix2 p h :=
    funext fun x => Fin.ext (by
      match x with
      | ⟨0, _⟩ => exact src_axis0 _ _
      | ⟨1, _⟩ => exact (src_axis1 _ _).trans hh)
  have er : dot_S1000x2048_S2048x128_S1000x128_1_0_0_1_n_n.rhsIdx (ix2 p q)
      ((ValueIdx.contrEquiv1 dot_S1000x2048_S2048x128_S1000x128_1_0_0_1_n_n 2048 rfl rfl).symm h) = ix2 h q :=
    funext fun x => Fin.ext (by
      match x with
      | ⟨0, _⟩ => exact (msg_axis0 _ _).trans hh
      | ⟨1, _⟩ => exact msg_axis1 _ _)
  rw [el, er]

/-! ## The body's stored value at an index -/

/-- One weight picked out of the three: the one-element slice at k, read at its one index. -/
theorem pick_apply (w : FVec Ideal S3 .f32) (off : Fin 1 → Nat) (k : Fin 3) (hk : off 0 = k.val) (hs : S3.Slices off S1)
    (hp : ∀ a, (![0] : Fin 1 → Nat) a < S1.size a) :
    extractAt ![0] (extractStridedSlice S1 off w hs) hp = w (ix1 k) := by
  show extractStridedSlice S1 off w hs (fun a => ⟨(![0] : Fin 1 → Nat) a, hp a⟩) = _
  refine extractStridedSlice_apply off w hs _ (ix1 k) fun a => ?_
  obtain rfl : a = 0 := Subsingleton.elim _ _
  show k.val = off 0 + 0
  omega

/-- What the body stores at row p and feature q of its block: the fused weighted sum of the two embedding blocks and the
    rectified message product, with the weights of the logits block's row. -/
theorem pay_apply (v0 : Vec Ideal S1x3 .f32) (v15 : Vec Ideal S1000x2048 .f32) (v16 : Vec Ideal S2048x128 .f32)
    (v21 v29 : Vec Ideal S1000x128 .f32) (p : Fin 1000) (q : Fin 128) :
    k3_pay1 (F := Ideal) v0 v15 v16 v21 v29 (ix2 p q)
      = HyperConv.weight (row v0) 0 * v21 (ix2 p q) + (HyperConv.weight (row v0) 1 + HyperConv.weight (row v0) 2) * v29 (ix2 p q)
        + HyperConv.weight (row v0) 2 * max (∑ h : Fin 2048, v15 (ix2 p h) * v16 (ix2 h q)) 0 := by
  show extractAt ![0] (extractStridedSlice S1 ![0] (bodyWeights v0) slices_S3_o0_S1) inpos_S1_p0 * v21 (ix2 p q)
      + (extractAt ![0] (extractStridedSlice S1 ![1] (bodyWeights v0) slices_S3_o1_S1) inpos_S1_p0
          + extractAt ![0] (extractStridedSlice S1 ![2] (bodyWeights v0) slices_S3_o2_S1) inpos_S1_p0)
        * (shapeCast S1000x128 v29 shapeCasts_S1000x128_S1000x128 : FVec Ideal S1000x128 .f32) (ix2 p q)
      + extractAt ![0] (extractStridedSlice S1 ![2] (bodyWeights v0) slices_S3_o2_S1) inpos_S1_p0
        * max ((matmul (φ₁ := .f32) (φ₂ := .f32) dot_S1000x2048_S2048x128_S1000x128_1_0_0_1_n_n none v15
            (shapeCast S2048x128 v16 shapeCasts_S2048x128_S2048x128) (constant (F := Ideal) S1000x128 .f32 0x00000000#32)
              : FVec Ideal S1000x128 .f32) (ix2 p q))
          (FloatOps.ofBits (F := Ideal) .f32 0x00000000#32) = _
  rw [pick_apply _ _ 0 rfl, pick_apply _ _ 1 rfl, pick_apply _ _ 2 rfl, shapeCast_self, shapeCast_self, product_apply,
    bodyWeights_apply, bodyWeights_apply, bodyWeights_apply]
  show _ + _ * max _ (Ideal.ofBits .f32 0x00000000#32) = _
  rw [Ideal.ofBits_zero_f32]

/-! ## From the blocks to the array -/

theorem zeros2 : (![0, 0] : Fin 2 → Nat) = fun _ => 0 := funext fun a => by fin_cases a <;> rfl

/-- What the output array ends holding: the fused weighted sum of the region's input arrays as entered. -/
abbrev fused (c : Dev nD) : HyperConv.Nodes.Idx → EReal :=
  HyperConv.mixFused (logits V c) (V c (Pipeline.arrRef spec3 3)) (V c (Pipeline.arrRef spec3 2))
    (HyperConv.rectified (V c (Pipeline.arrRef spec3 0)) (V c (Pipeline.arrRef spec3 1)))

/-- The printed index maps over the ten points: the row-blocked windows (the incidence rows, the two embeddings, the
    output) sit at row block t, the whole-array windows (the hyperedge messages, the logits) at block 0. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Each window's block read at an index of the block is its array at the index's place in the array. -/
theorem src_block_apply (c : Dev nD) (t : Fin cfg3.N) (y : S1000x2048.Idx) :
    iblk3 V c 0 t y = V c (Pipeline.arrRef spec3 0) (((cfg3.win 0).blk t).view.emb y) := rfl
theorem msg_block_apply (c : Dev nD) (t : Fin cfg3.N) (y : S2048x128.Idx) :
    iblk3 V c 1 t y = V c (Pipeline.arrRef spec3 1) (((cfg3.win 1).blk t).view.emb y) := rfl
theorem x1_block_apply (c : Dev nD) (t : Fin cfg3.N) (y : S1000x128.Idx) :
    iblk3 V c 2 t y = V c (Pipeline.arrRef spec3 2) (((cfg3.win 2).blk t).view.emb y) := rfl
theorem x0_block_apply (c : Dev nD) (t : Fin cfg3.N) (y : S1000x128.Idx) :
    iblk3 V c 3 t y = V c (Pipeline.arrRef spec3 3) (((cfg3.win 3).blk t).view.emb y) := rfl
theorem logits_block_apply (c : Dev nD) (t : Fin cfg3.N) (y : S1x3.Idx) :
    iblk3 V c 4 t y = V c (Pipeline.arrRef spec3 4) (((cfg3.win 4).blk t).view.emb y) := rfl

/-- WHAT POINT t WRITES BACK is block t of the fused weighted sum of the arrays as the region finds them. -/
theorem flushed_eq (c : Dev nD) (t : Fin cfg3.N) :
    (dat3 (F := Ideal) V c).flushed 5 t = ((cfg3.win 5).blk t).view.read (Elt Ideal) (fused V c) := by
  show (cfg3.win 5).cut (grid3.coords t) ((dat3 V c).after 5 t) = _
  rw [after3_5]
  unfold out3_5
  rw [View.canon_unit_zero zeros2]
  simp only [View.ld_unit_zero (S := S1x3) zeros2, View.ld_unit_zero (S := S1000x2048) zeros2,
    View.ld_unit_zero (S := S2048x128) zeros2, View.ld_unit_zero (S := S1000x128) zeros2]
  obtain ⟨e00, e01, e10, e11, e20, e21, e30, e31, e40, e41, e50, e51⟩ := index_facts t
  funext j
  have hp : (j 0).val < 1000 := (j 0).isLt
  have hq : (j 1).val < 128 := (j 1).isLt
  show k3_pay1 (F := Ideal) (iblk3 V c 4 t) (iblk3 V c 0 t) (iblk3 V c 1 t) (iblk3 V c 3 t) (iblk3 V c 2 t)
      ((win3 5).xinj (grid3.coords t) j) = fused V c (((cfg3.win 5).blk t).view.emb j)
  rw [show (win3 5).xinj (grid3.coords t) j = ix2 (⟨(j 0).val, hp⟩ : Fin 1000) (⟨(j 1).val, hq⟩ : Fin 128) from
    funext fun a => Fin.ext (by match a with | ⟨0, _⟩ => rfl | ⟨1, _⟩ => rfl)]
  rw [pay_apply]
  have hrow : row (iblk3 V c 4 t) = logits V c := funext fun k => by
    show iblk3 V c 4 t (ix2 (0 : Fin 1) k) = V c (Pipeline.arrRef spec3 4) (ix2 (0 : Fin 1) k)
    rw [logits_block_apply]
    refine congrArg (V c (Pipeline.arrRef spec3 4)) (funext fun a => Fin.ext ?_)
    match a with
    | ⟨0, _⟩ => show win3_4.index t (0 : Fin 2) * 1 + 1 * 0 = 0; omega
    | ⟨1, _⟩ => show win3_4.index t (1 : Fin 2) * 3 + 1 * k.val = k.val; omega
  have hx0 : iblk3 V c 3 t (ix2 (⟨(j 0).val, hp⟩ : Fin 1000) (⟨(j 1).val, hq⟩ : Fin 128))
      = V c (Pipeline.arrRef spec3 3) (((cfg3.win 5).blk t).view.emb j) := by
    rw [x0_block_apply]
    refine congrArg (V c (Pipeline.arrRef spec3 3)) (funext fun a => Fin.ext ?_)
    match a with
    | ⟨0, _⟩ => show win3_3.index t (0 : Fin 2) * 1000 + 1 * (j 0).val = win3_5.index t (0 : Fin 2) * 1000 + 1 * (j 0).val; omega
    | ⟨1, _⟩ => show win3_3.index t (1 : Fin 2) * 128 + 1 * (j 1).val = win3_5.index t (1 : Fin 2) * 128 + 1 * (j 1).val; omega
  have hx1 : iblk3 V c 2 t (ix2 (⟨(j 0).val, hp⟩ : Fin 1000) (⟨(j 1).val, hq⟩ : Fin 128))
      = V c (Pipeline.arrRef spec3 2) (((cfg3.win 5).blk t).view.emb j) := by
    rw [x1_block_apply]
    refine congrArg (V c (Pipeline.arrRef spec3 2)) (funext fun a => Fin.ext ?_)
    match a with
    | ⟨0, _⟩ => show win3_2.index t (0 : Fin 2) * 1000 + 1 * (j 0).val = win3_5.index t (0 : Fin 2) * 1000 + 1 * (j 0).val; omega
    | ⟨1, _⟩ => show win3_2.index t (1 : Fin 2) * 128 + 1 * (j 1).val = win3_5.index t (1 : Fin 2) * 128 + 1 * (j 1).val; omega
  have hsrc : ∀ h : Fin 2048, iblk3 V c 0 t (ix2 (⟨(j 0).val, hp⟩ : Fin 1000) h)
      = V c (Pipeline.arrRef spec3 0) (ix2 ⟨((((cfg3.win 5).blk t).view.emb j) 0).val, idx2_lt0 (((cfg3.win 5).blk t).view.emb j)⟩ h) := fun h => by
    rw [src_block_apply]
    refine congrArg (V c (Pipeline.arrRef spec3 0)) (funext fun a => Fin.ext ?_)
    match a with
    | ⟨0, _⟩ => show win3_0.index t (0 : Fin 2) * 1000 + 1 * (j 0).val = win3_5.index t (0 : Fin 2) * 1000 + 1 * (j 0).val; omega
    | ⟨1, _⟩ => show win3_0.index t (1 : Fin 2) * 2048 + 1 * h.val = h.val; omega
  have hmsg : ∀ h : Fin 2048, iblk3 V c 1 t (ix2 h (⟨(j 1).val, hq⟩ : Fin 128))
      = V c (Pipeline.arrRef spec3 1) (ix2 h ⟨((((cfg3.win 5).blk t).view.emb j) 1).val, idx2_lt1 (((cfg3.win 5).blk t).view.emb j)⟩) := fun h => by
    rw [msg_block_apply]
    refine congrArg (V c (Pipeline.arrRef spec3 1)) (funext fun a => Fin.ext ?_)
    match a with
    | ⟨0, _⟩ => show win3_1.index t (0 : Fin 2) * 2048 + 1 * h.val = h.val; omega
    | ⟨1, _⟩ => show win3_1.index t (1 : Fin 2) * 128 + 1 * (j 1).val = win3_5.index t (1 : Fin 2) * 128 + 1 * (j 1).val; omega
  rw [hrow, hx0, hx1]
  simp only [hsrc, hmsg]
  rfl

/-- An index of the output array is in point t's block iff each coordinate is in the block's range on its axis. -/
theorem mem_block (t : Fin cfg3.N) (i : S10000x128.Idx) :
    i ∈ ((cfg3.win 5).blk t).view.set
      ↔ ∀ a : Fin 2, win3_5.index t a * S1000x128.size a ≤ (i a).val ∧ (i a).val < win3_5.index t a * S1000x128.size a + S1000x128.size a := by
  show i ∈ ((View.whole main_v4).slice (win3_5.rect t)).set ↔ _
  rw [View.set_slice_whole, Rect.mem_set_unit]
  exact Iff.rfl

/-- The ten row blocks tile the output array: row r is in the block of point r / 1000. -/
theorem covered (i : S10000x128.Idx) :
    ∃ t : Fin cfg3.N, (cfg3.win 5).flush t = true ∧ i ∈ ((cfg3.win 5).blk t).view.set := by
  have hi0 : (i 0).val < 10000 := (i 0).isLt
  have hi1 : (i 1).val < 128 := (i 1).isLt
  refine ⟨(⟨(i 0).val / 1000, by show (i 0).val / 1000 < 10; omega⟩ : Fin cfg3.N), flush3_5 _, ?_⟩
  obtain ⟨-, -, -, -, -, -, -, -, -, -, e50, e51⟩ := index_facts (⟨(i 0).val / 1000, by show (i 0).val / 1000 < 10; omega⟩ : Fin cfg3.N)
  rw [mem_block]
  intro a
  match a with
  | ⟨0, _⟩ =>
    show win3_5.index _ (0 : Fin 2) * 1000 ≤ (i 0).val ∧ (i 0).val < win3_5.index _ (0 : Fin 2) * 1000 + 1000
    rw [e50]
    show (i 0).val / 1000 * 1000 ≤ (i 0).val ∧ (i 0).val < (i 0).val / 1000 * 1000 + 1000
    omega
  | ⟨1, _⟩ =>
    show win3_5.index _ (1 : Fin 2) * 128 ≤ (i 1).val ∧ (i 1).val < win3_5.index _ (1 : Fin 2) * 128 + 128
    rw [e51]
    omega

/-- After region 3 its output array is the fused weighted sum of its input arrays as entered. -/
theorem final (c : Dev nD) :
    (dat3 (F := Ideal) V c).arrAt 5 cfg3.N
      = HyperConv.mixFused (logits V c) (V c (Pipeline.arrRef spec3 3)) (V c (Pipeline.arrRef spec3 2))
          (HyperConv.rectified (V c (Pipeline.arrRef spec3 0)) (V c (Pipeline.arrRef spec3 1))) :=
  (dat3 (F := Ideal) V c).arrAt_eq_of_cover 5 (fused V c) (fun t _ => flushed_eq V c t) covered

end Cert.KernelIdeal.MixStep

end
-- ==== Proof.Chain.lean ====
/-
  The result array, followed through the four regions. Between regions the TensorCore's buffers are a fold from the
  launch memory: a region's output array holds what its write-backs leave, every other buffer what it held before.
  Reading that fold at the buffers each region stages:
    before region 0   the logits reshaped to [1, 3]; the arguments as launched;
    after region 0    t₁ = tar · x₀;
    after region 1    x₁ = max (src · t₁) 0 + x₀, that is one layer of x₀;
    after region 2    t₂ = tar · x₁;
    after region 3    w 0 · x₀ + (w 1 + w 2) · x₁ + w 2 · max (src · t₂) 0, the fused arrangement of the whole computation.
  An argument array is never written: an input window leaves its array as it found it, and the other regions do not
  stage it.
-/
import proofs.«153165_g26070451486833_cont_8to1_1708_2_alg».proof.Proof.Gen.KernelIdeal.Frame
import proofs.«153165_g26070451486833_cont_8to1_1708_2_alg».proof.Proof.HyperConv
import proofs.«153165_g26070451486833_cont_8to1_1708_2_alg».proof.Proof.HedgeStep0
import proofs.«153165_g26070451486833_cont_8to1_1708_2_alg».proof.Proof.NodeStep
import proofs.«153165_g26070451486833_cont_8to1_1708_2_alg».proof.Proof.HedgeStep2
import proofs.«153165_g26070451486833_cont_8to1_1708_2_alg».proof.Proof.MixStep
import Idealize.ShloMosaic.Lib.Pipeline.Value
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-! ## Before region 0: the one host operation writes only the reshaped logits -/

theorem W1_arg0 : W1 m ρ c (Proc.devRef .tc main_arg0) = m ((c : Thread nD τ).loc main_arg0) :=
  StableHlo.after_of_forall_not_mem (b := Proc.devRef .tc main_arg0) _ _ (List.forall_iff_forall_mem.mp (by
      simp only [hostOps0, List.Forall, StableHlo.reshape_writes, Finset.mem_singleton]
      exact StableHlo.devRef_ne_of_ne (by decide)))
theorem W1_arg1 : W1 m ρ c (Proc.devRef .tc main_arg1) = m ((c : Thread nD τ).loc main_arg1) :=
  StableHlo.after_of_forall_not_mem (b := Proc.devRef .tc main_arg1) _ _ (List.forall_iff_forall_mem.mp (by
      simp only [hostOps0, List.Forall, StableHlo.reshape_writes, Finset.mem_singleton]
      exact StableHlo.devRef_ne_of_ne (by decide)))
theorem W1_arg2 : W1 m ρ c (Proc.devRef .tc main_arg2) = m ((c : Thread nD τ).loc main_arg2) :=
  StableHlo.after_of_forall_not_mem (b := Proc.devRef .tc main_arg2) _ _ (List.forall_iff_forall_mem.mp (by
      simp only [hostOps0, List.Forall, StableHlo.reshape_writes, Finset.mem_singleton]
      exact StableHlo.devRef_ne_of_ne (by decide)))

/-- The [1, 3] logits buffer holds the three logits in order. -/
theorem W1_v0 : W1 m ρ c (Proc.devRef .tc main_v0)
    = shapeCast S1x3 (m ((c : Thread nD τ).loc main_arg3)) shapeCasts_S3_S1x3 := by
  show StableHlo.after hostOps0 (W0 m ρ c) (Proc.devRef .tc main_v0) = _
  after_results
  rfl

/-! ## After region 0 -/

theorem W2_arg0 : W2 m ρ c (Proc.devRef .tc main_arg0) = m ((c : Thread nD τ).loc main_arg0) :=
  ((W2_arr m ρ c 1).trans (((dat0 (V1 m ρ) c).arrAt_in 1 rfl _).trans (A_eq0 (V1 m ρ) c 1))).trans (W1_arg0 m ρ c)
theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  ((W2_arr m ρ c 0).trans (((dat0 (V1 m ρ) c).arrAt_in 0 rfl _).trans (A_eq0 (V1 m ρ) c 0))).trans (W1_arg2 m ρ c)
theorem W2_v0 : W2 m ρ c (Proc.devRef .tc main_v0)
    = shapeCast S1x3 (m ((c : Thread nD τ).loc main_arg3)) shapeCasts_S3_S1x3 :=
  (W2_of_ne m ρ c main_v0 (by decide)).trans (W1_v0 m ρ c)

/-- The first hyperedge messages: `t₁ = tar · x₀`. -/
theorem W2_v1 : W2 m ρ c (Proc.devRef .tc main_v1)
    = HyperConv.toHedges (m ((c : Thread nD τ).loc main_arg2)) (m ((c : Thread nD τ).loc main_arg0)) :=
  (W2_arr m ρ c 2).trans ((HedgeStep0.final (V1 m ρ) c).trans
    (congrArg₂ HyperConv.toHedges (W1_arg2 m ρ c) (W1_arg0 m ρ c)))

/-! ## After region 1 -/

theorem W3_arg0 : W3 m ρ c (Proc.devRef .tc main_arg0) = m ((c : Thread nD τ).loc main_arg0) :=
  ((W3_arr m ρ c 2).trans (((dat1 (V2 m ρ) c).arrAt_in 2 rfl _).trans (A_eq1 (V2 m ρ) c 2))).trans (W2_arg0 m ρ c)
theorem W3_arg1 : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_arg1 m ρ c)
theorem W3_arg2 : W3 m ρ c (Proc.devRef .tc main_arg2) = m ((c : Thread nD τ).loc main_arg2) :=
  (W3_of_ne m ρ c main_arg2 (by decide)).trans (W2_arg2 m ρ c)
theorem W3_v0 : W3 m ρ c (Proc.devRef .tc main_v0)
    = shapeCast S1x3 (m ((c : Thread nD τ).loc main_arg3)) shapeCasts_S3_S1x3 :=
  (W3_of_ne m ρ c main_v0 (by decide)).trans (W2_v0 m ρ c)

/-- The first layer's embeddings: `x₁` is one layer of `x₀`. -/
theorem W3_v2 : W3 m ρ c (Proc.devRef .tc main_v2)
    = HyperConv.layer (m ((c : Thread nD τ).loc main_arg1)) (m ((c : Thread nD τ).loc main_arg2)) (m ((c : Thread nD τ).loc main_arg0)) :=
  (W3_arr m ρ c 3).trans ((NodeStep.final (V2 m ρ) c).trans
    (show HyperConv.update (W2 m ρ c (Proc.devRef .tc main_arg1)) (W2 m ρ c (Proc.devRef .tc main_v1)) (W2 m ρ c (Proc.devRef .tc main_arg0)) = _ by
      rw [W2_arg1, W2_v1, W2_arg0]; rfl))

/-! ## After region 2 -/

theorem W4_arg0 : W4 m ρ c (Proc.devRef .tc main_arg0) = m ((c : Thread nD τ).loc main_arg0) :=
  (W4_of_ne m ρ c main_arg0 (by decide)).trans (W3_arg0 m ρ c)
theorem W4_arg1 : W4 m ρ c (Proc.devRef .tc main_arg1) = m ((c : Thread nD τ).loc main_arg1) :=
  (W4_of_ne m ρ c main_arg1 (by decide)).trans (W3_arg1 m ρ c)
theorem W4_v0 : W4 m ρ c (Proc.devRef .tc main_v0)
    = shapeCast S1x3 (m ((c : Thread nD τ).loc main_arg3)) shapeCasts_S3_S1x3 :=
  (W4_of_ne m ρ c main_v0 (by decide)).trans (W3_v0 m ρ c)
theorem W4_v2 : W4 m ρ c (Proc.devRef .tc main_v2)
    = HyperConv.layer (m ((c : Thread nD τ).loc main_arg1)) (m ((c : Thread nD τ).loc main_arg2)) (m ((c : Thread nD τ).loc main_arg0)) :=
  ((W4_arr m ρ c 1).trans (((dat2 (V3 m ρ) c).arrAt_in 1 rfl _).trans (A_eq2 (V3 m ρ) c 1))).trans (W3_v2 m ρ c)

/-- The second hyperedge messages: `t₂ = tar · x₁`. -/
theorem W4_v3 : W4 m ρ c (Proc.devRef .tc main_v3)
    = HyperConv.toHedges (m ((c : Thread nD τ).loc main_arg2))
        (HyperConv.layer (m ((c : Thread nD τ).loc main_arg1)) (m ((c : Thread nD τ).loc main_arg2)) (m ((c : Thread nD τ).loc main_arg0))) :=
  (W4_arr m ρ c 2).trans ((HedgeStep2.final (V3 m ρ) c).trans
    (congrArg₂ HyperConv.toHedges (W3_arg2 m ρ c) (W3_v2 m ρ c)))

/-! ## After region 3: the result -/

/-- The logits the last region stages are the three launch logits, in order. -/
theorem logits_eq : MixStep.logits (V4 m ρ) c = fun k => m ((c : Thread nD τ).loc main_arg3) (ix1 k) := by
  funext k
  show W4 m ρ c (Proc.devRef .tc main_v0) (ix2 (0 : Fin 1) k) = _
  rw [W4_v0]
  refine (shapeCast_addUnit_apply ![3] (m ((c : Thread nD τ).loc main_arg3)) shapeCasts_S3_S1x3 (ix2 (0 : Fin 1) k)).trans ?_
  exact congrArg (m ((c : Thread nD τ).loc main_arg3)) (funext fun a => by match a with | ⟨0, _⟩ => rfl)

/-- THE RESULT ARRAY after the run is the fused arrangement of the whole computation, of the launch memory. -/
theorem result_eq : W5 m ρ c (Proc.devRef .tc main_v4)
    = HyperConv.fusedResult (m ((c : Thread nD τ).loc main_arg1)) (m ((c : Thread nD τ).loc main_arg2))
        (fun k => m ((c : Thread nD τ).loc main_arg3) (ix1 k)) (m ((c : Thread nD τ).loc main_arg0)) :=
  (W5_arr m ρ c 5).trans ((MixStep.final (V4 m ρ) c).trans
    (show HyperConv.mixFused (MixStep.logits (V4 m ρ) c) (W4 m ρ c (Proc.devRef .tc main_arg0)) (W4 m ρ c (Proc.devRef .tc main_v2))
        (HyperConv.rectified (W4 m ρ c (Proc.devRef .tc main_arg1)) (W4 m ρ c (Proc.devRef .tc main_v3))) = _ by
      rw [logits_eq, W4_arg0, W4_v2, W4_arg1, W4_v3]; rfl))

end Cert.KernelIdeal.Chain

end
-- ==== Proof.Reference.lean ====
/-
  The reference, read one operation at a time, is the stacked arrangement: two layers `x ↦ max (src · (tar · x)) 0 + x`
  (each incidence product a sum over the contracted axis, the rectification a maximum against a broadcast zero), the
  softmax of the three logits (the largest logit as a fold of `max` from `-∞`, a second `max` against `-∞` that
  changes nothing, the exponentials' sum from zero), the three embeddings joined along a new leading axis, multiplied
  by the weights broadcast along the other two axes, and summed over the leading axis from zero.
-/
import proofs.«153165_g26070451486833_cont_8to1_1708_2_alg».proof.Proof.Gen.ReferenceIdeal.Read
import proofs.«153165_g26070451486833_cont_8to1_1708_2_alg».proof.Proof.HyperConv
import Idealize.ShloMosaic.Lib.Pipeline.Value
import Idealize.ShloMosaic.PureOps.Ideal.Laws

set_option maxRecDepth 16384

noncomputable section

namespace Cert.ReferenceIdeal.Stacked

open Idealize.ShloMosaic Idealize.ShloMosaic.TcCoe Idealize.ShloMosaic.ValueIdx Idealize.SL.Sem
open Cert.ReferenceIdeal Cert.ReferenceIdeal.Gen Cert.ReferenceIdeal.Read
open scoped BigOperators

/-! ## The two incidence products -/

/-- The gather onto the hyperedges: the product of the [2048, 10000] incidence matrix with node embeddings is, entry by
    entry, the sum over the nodes. -/
theorem dot_toHedges (A : (⟨S2048x10000, .f32⟩ : BufTy).Contents (Elt Ideal)) (X : (⟨S10000x128, .f32⟩ : BufTy).Contents (Elt Ideal)) :
    Host.dotGeneral (F := Ideal) (φ₁ := .f32) (φ₂ := .f32) dot_S2048x10000_S10000x128_S2048x128_1_0_0_1_n_n none A X = HyperConv.toHedges A X := by
  funext i
  have h := val_main_v0_apply X A i
  unfold val_main_v0 at h
  rw [h]
  unfold HyperConv.toHedges
  refine Finset.sum_congr rfl fun k _ => ?_
  have el : lidx_main_v0 i k = ix2 ⟨(i 0).val, idx2_lt0 i⟩ k :=
    funext fun a => by match a with | ⟨0, _⟩ => rfl | ⟨1, _⟩ => rfl
  have er : ridx_main_v0 i k = ix2 k ⟨(i 1).val, idx2_lt1 i⟩ :=
    funext fun a => by match a with | ⟨0, _⟩ => rfl | ⟨1, _⟩ => rfl
  rw [el, er]

/-- The scatter back to the nodes: the product of the [10000, 2048] incidence matrix with hyperedge messages is, entry
    by entry, the sum over the hyperedges. -/
theorem dot_toNodes (A : (⟨S10000x2048, .f32⟩ : BufTy).Contents (Elt Ideal)) (T : (⟨S2048x128, .f32⟩ : BufTy).Contents (Elt Ideal)) :
    Host.dotGeneral (F := Ideal) (φ₁ := .f32) (φ₂ := .f32) dot_S10000x2048_S2048x128_S10000x128_1_0_0_1_n_n none A T = HyperConv.toNodes A T := by
  funext i
  have h : Host.dotGeneral (F := Ideal) (φ₁ := .f32) (φ₂ := .f32) dot_S10000x2048_S2048x128_S10000x128_1_0_0_1_n_n none A T i = ∑ k : Fin 2048, A (lidx_main_v1 i k) * T (ridx_main_v1 i k) := by
    simp only [Host.dotGeneral]
    rw [Ideal.dotGeneral_apply, ← Equiv.sum_comp (ValueIdx.contrEquiv1 dot_S10000x2048_S2048x128_S10000x128_1_0_0_1_n_n 2048 rfl rfl).symm]
    refine Finset.sum_congr rfl fun k _ => ?_
    have hk := ValueIdx.contrEquiv1_symm_val dot_S10000x2048_S2048x128_S10000x128_1_0_0_1_n_n 2048 rfl rfl k
    have el : dot_S10000x2048_S2048x128_S10000x128_1_0_0_1_n_n.lhsIdx i ((ValueIdx.contrEquiv1 dot_S10000x2048_S2048x128_S10000x128_1_0_0_1_n_n 2048 rfl rfl).symm k) = lidx_main_v1 i k := funext fun a => Fin.ext (by
      match a with
      | ⟨0, _⟩ => exact lhs_main_v1_0 _ _
      | ⟨1, _⟩ => exact (lhs_main_v1_1 _ _).trans hk)
    have er : dot_S10000x2048_S2048x128_S10000x128_1_0_0_1_n_n.rhsIdx i ((ValueIdx.contrEquiv1 dot_S10000x2048_S2048x128_S10000x128_1_0_0_1_n_n 2048 rfl rfl).symm k) = ridx_main_v1 i k := funext fun a => Fin.ext (by
      match a with
      | ⟨0, _⟩ => exact (rhs_main_v1_0 _ _).trans hk
      | ⟨1, _⟩ => exact rhs_main_v1_1 _ _)
    rw [el, er]
  rw [h]
  unfold HyperConv.toNodes
  refine Finset.sum_congr rfl fun k _ => ?_
  have el : lidx_main_v1 i k = ix2 ⟨(i 0).val, idx2_lt0 i⟩ k :=
    funext fun a => by match a with | ⟨0, _⟩ => rfl | ⟨1, _⟩ => rfl
  have er : ridx_main_v1 i k = ix2 k ⟨(i 1).val, idx2_lt1 i⟩ :=
    funext fun a => by match a with | ⟨0, _⟩ => rfl | ⟨1, _⟩ => rfl
  rw [el, er]

/-! ## The two layers -/

/-- The first rectification's broadcast constant is zero everywhere. -/
theorem relu0_zero (i : S10000x128.Idx) : val_main_call0_v0 (F := Ideal) i = 0 := by
  rw [val_main_call0_v0_apply, val_main_call0_cst_apply]
  exact Ideal.ofBits_zero_f32

/-- The second rectification's broadcast constant is zero everywhere. -/
theorem relu1_zero (i : S10000x128.Idx) : val_main_call1_v0 (F := Ideal) i = 0 := by
  rw [val_main_call1_v0_apply, val_main_call1_cst_apply]
  exact Ideal.ofBits_zero_f32

/-- One layer over arbitrary embeddings `X`: gather, scatter, the maximum against an array `Z` that is zero
    everywhere, and the residual sum. -/
theorem layer_of (x1 : (⟨S10000x2048, .f32⟩ : BufTy).Contents (Elt Ideal)) (x2 : (⟨S2048x10000, .f32⟩ : BufTy).Contents (Elt Ideal)) (X Z : (⟨S10000x128, .f32⟩ : BufTy).Contents (Elt Ideal)) (hZ : ∀ i, Z i = 0) :
    addf (maximumf (Host.dotGeneral (F := Ideal) (φ₁ := .f32) (φ₂ := .f32) dot_S10000x2048_S2048x128_S10000x128_1_0_0_1_n_n none x1 (Host.dotGeneral (F := Ideal) (φ₁ := .f32) (φ₂ := .f32) dot_S2048x10000_S10000x128_S2048x128_1_0_0_1_n_n none x2 X)) Z) X = HyperConv.layer x1 x2 X := by
  rw [dot_toHedges, dot_toNodes]
  funext i
  show max (HyperConv.toNodes x1 (HyperConv.toHedges x2 X) i) (Z i) + X i = _
  rw [hZ]
  rfl

/-- The first layer's embeddings. -/
theorem v3_eq (x0 : (⟨S10000x128, .f32⟩ : BufTy).Contents (Elt Ideal)) (x1 : (⟨S10000x2048, .f32⟩ : BufTy).Contents (Elt Ideal)) (x2 : (⟨S2048x10000, .f32⟩ : BufTy).Contents (Elt Ideal)) :
    val_main_v3 (F := Ideal) x0 x1 x2 = HyperConv.layer x1 x2 x0 := by
  unfold val_main_v3 val_main_v2 val_main_v1 val_main_v0
  exact layer_of x1 x2 x0 _ relu0_zero

/-- The second layer's embeddings: the same layer applied to the first layer's. -/
theorem v7_eq (x0 : (⟨S10000x128, .f32⟩ : BufTy).Contents (Elt Ideal)) (x1 : (⟨S10000x2048, .f32⟩ : BufTy).Contents (Elt Ideal)) (x2 : (⟨S2048x10000, .f32⟩ : BufTy).Contents (Elt Ideal)) :
    val_main_v7 (F := Ideal) x0 x1 x2 = HyperConv.layer x1 x2 (HyperConv.layer x1 x2 x0) := by
  unfold val_main_v7 val_main_v6 val_main_v5 val_main_v4
  rw [v3_eq]
  exact layer_of x1 x2 _ _ relu1_zero

/-! ## The softmax weights -/

/-- The pattern `0xFF800000` is `-∞`. -/
theorem ofBits_negInf : Ideal.ofBits .f32 0xFF800000#32 = ⊥ := by simp [Ideal.ofBits, Ideal.ieee]

/-- A rank-1 index set is its coordinate range. -/
def idx1Equiv {n : Nat} : (⟨1, ![n]⟩ : Shape).Idx ≃ Fin n where
  toFun i := i 0
  invFun := ix1
  left_inv i := (eq_ix1 i).symm
  right_inv _ := rfl

/-- The reduction of the three logits by `max` from `-∞` is their largest. -/
theorem v8_eq (x3 : (⟨S3, .f32⟩ : BufTy).Contents (Elt Ideal)) (j : S_.Idx) :
    val_main_v8 (F := Ideal) x3 j = HyperConv.logitMax fun k => x3 (ix1 k) := by
  unfold val_main_v8
  rw [Host.reduce_eq_fold, val_main_cst_apply,
    Finset.filter_true_of_mem fun i _ => funext fun b => b.elim0,
    ← Finset.map_univ_equiv (idx1Equiv (n := 3)).symm, Finset.fold_map]
  show (Finset.univ : Finset (Fin 3)).fold max (Ideal.ofBits .f32 0xFF800000#32) (fun k => x3 (ix1 k)) = _
  rw [ofBits_negInf]
  rfl

/-- The second maximum against `-∞` changes nothing. -/
theorem v9_eq (x3 : (⟨S3, .f32⟩ : BufTy).Contents (Elt Ideal)) (j : S_.Idx) :
    val_main_v9 (F := Ideal) x3 j = HyperConv.logitMax fun k => x3 (ix1 k) := by
  rw [val_main_v9_apply, val_main_cst_0_apply, v8_eq]
  show max (Ideal.ofBits .f32 0xFF800000#32) _ = _
  rw [ofBits_negInf]
  exact max_bot_left _

/-- The largest logit broadcast back along the logits' axis. -/
theorem v11_eq (x3 : (⟨S3, .f32⟩ : BufTy).Contents (Elt Ideal)) (i : S3.Idx) :
    val_main_v11 (F := Ideal) x3 i = HyperConv.logitMax fun k => x3 (ix1 k) := by
  rw [val_main_v11_apply, val_main_v10_apply, v9_eq]

/-- The exponential of a logit less the largest. -/
theorem v13_eq (x3 : (⟨S3, .f32⟩ : BufTy).Contents (Elt Ideal)) (k : Fin 3) :
    val_main_v13 (F := Ideal) x3 (ix1 k) = HyperConv.shiftedExp (fun k => x3 (ix1 k)) k := by
  rw [val_main_v13_apply, val_main_v12_apply, v11_eq]
  rfl

/-- The exponentials' sum from zero. -/
theorem v14_eq (x3 : (⟨S3, .f32⟩ : BufTy).Contents (Elt Ideal)) (j : S_.Idx) :
    val_main_v14 (F := Ideal) x3 j = HyperConv.expSum fun k => x3 (ix1 k) := by
  rw [val_main_v14_apply, val_main_cst_1_apply, ← Equiv.sum_comp idx1Equiv.symm]
  show Ideal.ofBits .f32 0x00000000#32 + ∑ k : Fin 3, val_main_v13 (F := Ideal) x3 (ix1 k) = _
  rw [Ideal.ofBits_zero_f32, zero_add]
  unfold HyperConv.expSum
  exact Finset.sum_congr rfl fun k _ => v13_eq x3 k

/-- The softmax weight of logit `k`. -/
theorem v17_eq (x3 : (⟨S3, .f32⟩ : BufTy).Contents (Elt Ideal)) (k : Fin 3) :
    val_main_v17 (F := Ideal) x3 (ix1 k) = HyperConv.weight (fun k => x3 (ix1 k)) k := by
  rw [val_main_v17_apply, val_main_v16_apply, val_main_v15_apply, v14_eq, v13_eq]
  rfl

/-! ## The three embeddings joined along a new leading axis -/

/-- A [1, 10000, 128] piece's index over node index `i`. -/
abbrev under (i : S10000x128.Idx) : S1x10000x128.Idx := ix3 (0 : Fin 1) (i 0) (i 1)

/-- The three pieces' common index map reads the piece at `under i` back at `i`. -/
theorem idx18_under (i : S10000x128.Idx) : idx_main_v18 (under i) = i :=
  funext fun a => by match a with | ⟨0, _⟩ => rfl | ⟨1, _⟩ => rfl

/-- The join of three [1, 10000, 128] pieces read at leading coordinate `k`: piece `k` at the index under `i`. -/
theorem concat3_at (p0 p1 p2 : (⟨S1x10000x128, .f32⟩ : BufTy).Contents (Elt Ideal)) (i : S10000x128.Idx) (k : Fin 3) :
    concatenate S3x10000x128 0 [⟨S1x10000x128, p0⟩, ⟨S1x10000x128, p1⟩, ⟨S1x10000x128, p2⟩] concatenates_S1x10000x128_S1x10000x128_S1x10000x128_S3x10000x128_d0 (idx_main_v25 i k)
      = HyperConv.stack (fun i => p0 (under i)) (fun i => p1 (under i)) (fun i => p2 (under i)) k i := by
  have hi : ∀ (k : Fin 3) (b : Fin S1x10000x128.rank), b.cast (rfl : S1x10000x128.rank = S3x10000x128.rank) ≠ 0 →
      (under i b).val = (idx_main_v25 i k (b.cast rfl)).val := fun k b hb => by
    match b with
    | ⟨0, _⟩ => exact absurd rfl hb
    | ⟨1, _⟩ => rfl
    | ⟨2, _⟩ => rfl
  match k with
  | ⟨0, _⟩ =>
    exact concatenate_apply_piece 0 [⟨S1x10000x128, p0⟩, ⟨S1x10000x128, p1⟩, ⟨S1x10000x128, p2⟩] concatenates_S1x10000x128_S1x10000x128_S1x10000x128_S3x10000x128_d0 _ 0 (by show (0 : Nat) < 3; decide)
      S1x10000x128 p0 rfl rfl 0 rfl (under i) (hi _) rfl
  | ⟨1, _⟩ =>
    exact concatenate_apply_piece 0 [⟨S1x10000x128, p0⟩, ⟨S1x10000x128, p1⟩, ⟨S1x10000x128, p2⟩] concatenates_S1x10000x128_S1x10000x128_S1x10000x128_S3x10000x128_d0 _ 1 (by show (1 : Nat) < 3; decide)
      S1x10000x128 p1 rfl rfl 1 rfl (under i) (hi _) rfl
  | ⟨2, _⟩ =>
    exact concatenate_apply_piece 0 [⟨S1x10000x128, p0⟩, ⟨S1x10000x128, p1⟩, ⟨S1x10000x128, p2⟩] concatenates_S1x10000x128_S1x10000x128_S1x10000x128_S3x10000x128_d0 _ 2 (by show (2 : Nat) < 3; decide)
      S1x10000x128 p2 rfl rfl 2 rfl (under i) (hi _) rfl

/-- The joined array at leading coordinate `k` is the `k`-th of the input, the first layer's and the second layer's
    embeddings. -/
theorem v21_at (x0 : (⟨S10000x128, .f32⟩ : BufTy).Contents (Elt Ideal)) (x1 : (⟨S10000x2048, .f32⟩ : BufTy).Contents (Elt Ideal)) (x2 : (⟨S2048x10000, .f32⟩ : BufTy).Contents (Elt Ideal)) (i : S10000x128.Idx) (k : Fin 3) :
    val_main_v21 (F := Ideal) x0 x1 x2 (idx_main_v25 i k)
      = HyperConv.stack x0 (val_main_v3 (F := Ideal) x0 x1 x2) (val_main_v7 (F := Ideal) x0 x1 x2) k i := by
  unfold val_main_v21
  rw [concat3_at]
  have e0 : (fun i => val_main_v18 (F := Ideal) x0 (under i)) = x0 :=
    funext fun i => by rw [val_main_v18_apply, idx18_under]
  have e1 : (fun i => val_main_v19 (F := Ideal) x0 x1 x2 (under i)) = val_main_v3 (F := Ideal) x0 x1 x2 :=
    funext fun i => by rw [val_main_v19_apply]; exact congrArg _ (idx18_under i)
  have e2 : (fun i => val_main_v20 (F := Ideal) x0 x1 x2 (under i)) = val_main_v7 (F := Ideal) x0 x1 x2 :=
    funext fun i => by rw [val_main_v20_apply]; exact congrArg _ (idx18_under i)
  rw [e0, e1, e2]

/-! ## The weighted sum over the leading axis -/

/-- The reference's result stage is the stacked weighted sum of the three embeddings. -/
theorem result_eq (x0 : (⟨S10000x128, .f32⟩ : BufTy).Contents (Elt Ideal)) (x1 : (⟨S10000x2048, .f32⟩ : BufTy).Contents (Elt Ideal))
    (x2 : (⟨S2048x10000, .f32⟩ : BufTy).Contents (Elt Ideal)) (x3 : (⟨S3, .f32⟩ : BufTy).Contents (Elt Ideal)) :
    val_main_v25 (F := Ideal) x0 x1 x2 x3 = HyperConv.stackedResult x1 x2 (fun k => x3 (ix1 k)) x0 := by
  funext i
  rw [val_main_v25_apply, val_main_cst_2_apply]
  show Ideal.ofBits .f32 0x00000000#32 + _ = _
  rw [Ideal.ofBits_zero_f32]
  unfold HyperConv.stackedResult HyperConv.mixStacked
  refine congrArg (0 + ·) (Finset.sum_congr rfl fun k _ => ?_)
  have e : idx_main_v22 (idx_main_v23 (idx_main_v25 i k)) = ix1 k :=
    funext fun a => by match a with | ⟨0, _⟩ => rfl
  rw [val_main_v24_apply, v21_at, val_main_v23_apply, val_main_v22_apply, e, v17_eq, v3_eq, v7_eq]
  rfl

end Cert.ReferenceIdeal.Stacked

end
-- ==== Proof.Arrangement.lean ====
/-
  Why the two arrangements agree. For FINITE logits the largest logit is one of them, so every shifted exponent is a
  real number, every `exp` of it a positive real, their sum a positive real, and every weight a NON-NEGATIVE REAL.
  On the extended reals a non-negative real factor distributes over any sum (`ω · (y + z) = ω · y + ω · z`, also when
  `y` and `z` are infinities of opposite signs), and a sum of two non-negative factors distributes over any
  multiplicand. Hence `(w 1 + w 2) · x₁ + w 2 · r = x₁ · w 1 + (r + x₁) · w 2`, and the rest is commutativity and
  associativity of the extended reals' sum.
-/
import proofs.«153165_g26070451486833_cont_8to1_1708_2_alg».proof.Proof.HyperConv
import Mathlib.Data.EReal.Operations
import Mathlib.Algebra.BigOperators.Fin

noncomputable section

namespace Cert.HyperConv

open Idealize.ShloMosaic Idealize.ShloMosaic.ValueIdx
open scoped BigOperators

/-- Each softmax weight of finite logits is a non-negative real. -/
theorem weight_nonneg_real (a : Fin 3 → EReal) (ha : ∀ k, ∃ r : ℝ, a k = (r : EReal)) (k : Fin 3) :
    ∃ ω : ℝ, 0 ≤ ω ∧ weight a k = (ω : EReal) := by
  choose r hr using ha
  -- the largest logit is one of the three
  obtain ⟨k₀, hk₀⟩ : ∃ k₀ : Fin 3, logitMax a = (r k₀ : EReal) := by
    have hsup : logitMax a = (Finset.univ : Finset (Fin 3)).sup a := rfl
    obtain ⟨i, -, hi⟩ := Finset.exists_mem_eq_sup (Finset.univ : Finset (Fin 3)) Finset.univ_nonempty a
    exact ⟨i, by rw [hsup, hi, hr i]⟩
  -- every shifted exponential is the positive real `exp (r j - r k₀)`
  have hexp : ∀ j, shiftedExp a j = ((Real.exp (r j - r k₀) : ℝ) : EReal) := by
    intro j
    rw [shiftedExp, hk₀, hr j, ← EReal.coe_sub, Ideal.exp_coe]
  -- their sum is a positive real
  have hsum : expSum a = ((Real.exp (r 0 - r k₀) + Real.exp (r 1 - r k₀) + Real.exp (r 2 - r k₀) : ℝ) : EReal) := by
    rw [expSum, Fin.sum_univ_three, hexp 0, hexp 1, hexp 2, EReal.coe_add, EReal.coe_add]
  have hpos : 0 < Real.exp (r 0 - r k₀) + Real.exp (r 1 - r k₀) + Real.exp (r 2 - r k₀) := by
    have h0 := Real.exp_pos (r 0 - r k₀)
    have h1 := Real.exp_pos (r 1 - r k₀)
    have h2 := Real.exp_pos (r 2 - r k₀)
    linarith
  refine ⟨Real.exp (r k - r k₀) * (1 / (Real.exp (r 0 - r k₀) + Real.exp (r 1 - r k₀) + Real.exp (r 2 - r k₀))), ?_, ?_⟩
  · exact mul_nonneg (Real.exp_pos _).le (one_div_pos.mpr hpos).le
  · rw [weight, hexp k, hsum, Ideal.div_coe hpos.ne', EReal.coe_mul]

/-- For finite logits the fused and the stacked arrangement are one function of the four inputs. -/
theorem fusedResult_eq_stackedResult (src : SrcInc.Idx → EReal) (tar : TarInc.Idx → EReal) (a : Fin 3 → EReal)
    (x0 : Nodes.Idx → EReal) (ha : ∀ k, ∃ r : ℝ, a k = (r : EReal)) :
    fusedResult src tar a x0 = stackedResult src tar a x0 := by
  funext i
  -- the identity at one point: the second and third weight non-negative reals, everything else arbitrary extended reals
  have point : ∀ (w0 w1 w2 : EReal) (ω1 ω2 : ℝ), 0 ≤ ω1 → 0 ≤ ω2 → w1 = (ω1 : EReal) → w2 = (ω2 : EReal) →
      ∀ p q s : EReal, w0 * p + (w1 + w2) * q + w2 * s = 0 + (p * w0 + q * w1 + (s + q) * w2) := by
    intro w0 w1 w2 ω1 ω2 h1 h2 e1 e2 p q s
    have n1 : (0 : EReal) ≤ w1 := by rw [e1]; exact_mod_cast h1
    have n2 : (0 : EReal) ≤ w2 := by rw [e2]; exact_mod_cast h2
    have t2 : w2 ≠ ⊤ := by rw [e2]; exact EReal.coe_ne_top ω2
    rw [EReal.right_distrib_of_nonneg n1 n2, EReal.right_distrib_of_nonneg_of_ne_top n2 t2, zero_add,
      mul_comm p w0, mul_comm q w1, mul_comm s w2, mul_comm q w2]
    ac_rfl
  obtain ⟨ω1, h1, e1⟩ := weight_nonneg_real a ha 1
  obtain ⟨ω2, h2, e2⟩ := weight_nonneg_real a ha 2
  generalize hx1 : layer src tar x0 = x1
  have hfused : fusedResult src tar a x0 i
      = weight a 0 * x0 i + (weight a 1 + weight a 2) * x1 i + weight a 2 * rectified src (toHedges tar x1) i := by
    rw [← hx1]; rfl
  have hstacked : stackedResult src tar a x0 i
      = 0 + (x0 i * weight a 0 + x1 i * weight a 1 + (rectified src (toHedges tar x1) i + x1 i) * weight a 2) := by
    rw [← hx1]
    show 0 + ∑ k : Fin 3, stack x0 (layer src tar x0) (layer src tar (layer src tar x0)) k i * weight a k = _
    rw [Fin.sum_univ_three]
    rfl
  rw [hfused, hstacked]
  exact point _ _ _ ω1 ω2 h1 h2 e1 e2 _ _ _

end Cert.HyperConv

end
-- ==== Proof.FiniteLogits.lean ====
/-
  The precondition says every float input is finite: each `|x| < +∞` test, reduced by `and` over the whole array, is
  one. For the three attention logits this gives three real numbers.
-/
import proofs.«153165_g26070451486833_cont_8to1_1708_2_alg».proof.Defs
import proofs.«153165_g26070451486833_cont_8to1_1708_2_alg».proof.Proof.Gen.Pre_finite_inputs
import Idealize.ShloMosaic.Lib.ReduceAll
import Idealize.ShloMosaic.Lib.ValueIdx

noncomputable section

namespace Cert.FiniteLogits

open Idealize.ShloMosaic Idealize.ShloMosaic.TcCoe Idealize.ShloMosaic.ValueIdx Idealize.SL.Sem

/-- Under the precondition each attention logit of the idealized kernel's launch memory is a real number. -/
theorem logits_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (k : Fin 3) :
    ∃ r : ℝ, m ((c.tc : Thread Cert.KernelIdeal.nD Cert.KernelIdeal.τ).loc Cert.KernelIdeal.main_arg3) (ix1 k) = (r : EReal) := by
  -- an extended real whose absolute value is strictly below `+∞` is a real number
  have key : ∀ x : EReal, Ideal.cmp .olt (max x (-x)) ⊤ = 1#1 → ∃ r : ℝ, x = (r : EReal) := by
    intro x hx
    induction x using EReal.rec with
    | bot => simp [Ideal.cmp] at hx
    | coe r => exact ⟨r, rfl⟩
    | top => simp [Ideal.cmp] at hx
  -- the bit pattern the tests compare against is `+∞`
  have htop : Ideal.ofBits .f32 0x7F800000#32 = ⊤ := by simp [Ideal.ofBits, Ideal.ieee]
  -- the precondition at this device, read at its one index
  have h0 := congrFun (h c) ValueIdx.ix0
  generalize m ((c.tc : Thread Cert.KernelIdeal.nD Cert.KernelIdeal.τ).loc Cert.KernelIdeal.main_arg3) = a3 at h0 ⊢
  generalize m ((c.tc : Thread Cert.KernelIdeal.nD Cert.KernelIdeal.τ).loc Cert.KernelIdeal.main_arg2) = a2 at h0
  generalize m ((c.tc : Thread Cert.KernelIdeal.nD Cert.KernelIdeal.τ).loc Cert.KernelIdeal.main_arg1) = a1 at h0
  generalize m ((c.tc : Thread Cert.KernelIdeal.nD Cert.KernelIdeal.τ).loc Cert.KernelIdeal.main_arg0) = a0 at h0
  dsimp only [Cert.Pre_finite_inputs.fn, Cert.Pre_finite_inputs.fn_part1] at h0
  -- the last conjunct is the test of the three logits, reduced by `and` over the whole array
  obtain ⟨-, h3⟩ := IntOp.andi_eq_one.1 h0
  haveI : Subsingleton Cert.Pre_finite_inputs.S_.Idx := ⟨fun a b => funext fun d => d.elim0⟩
  have hk := Host.reduce_andi_all _ _ _ _ _ h3 (ix1 k)
  refine key _ ?_
  rw [← htop]
  exact hk

end Cert.FiniteLogits

end
-- ==== Proof.lean ====
/-
  Two layers of a directed hypergraph convolution over dense incidence matrices and their attention-weighted sum:
  the kernel computes it in four pipelined regions (gather onto the hyperedges, send back to the nodes with the
  rectification and the residual, gather again, and a last region that fuses the second rectified message with the
  softmax-weighted sum), the reference as plain array operations.

  * The three frames: the kernel's two are its several-region frame certificates; the reference has no kernel, and its
    frame is its run with the result dropped.
  * `preserves`: the idealization rewrote nothing, so there is nothing to state.
  * `algebraic`: the kernel's result array is the FUSED arrangement `w 0 · x₀ + (w 1 + w 2) · x₁ + w 2 · r` of the launch
    memory (each region's output array read as one whole-array function of its inputs — HedgeStep0, NodeStep,
    HedgeStep2, MixStep —, followed through the boundaries between regions in Chain, under the run of Launched); the
    reference's is the STACKED arrangement `0 + ∑ k, xₖ · w k` (Reference); and for finite logits (FiniteLogits, from
    the precondition) the softmax weights are non-negative reals, over which the two arrangements agree on all extended
    reals (Arrangement). The mathematics is stated once in HyperConv.
-/
import proofs.«153165_g26070451486833_cont_8to1_1708_2_alg».proof.Defs
import proofs.«153165_g26070451486833_cont_8to1_1708_2_alg».proof.Proof.Gen.Kernel
import proofs.«153165_g26070451486833_cont_8to1_1708_2_alg».proof.Proof.Gen.Kernel.Skeleton
import proofs.«153165_g26070451486833_cont_8to1_1708_2_alg».proof.Proof.Gen.Kernel.Launch
import proofs.«153165_g26070451486833_cont_8to1_1708_2_alg».proof.Proof.Gen.Kernel.Points
import proofs.«153165_g26070451486833_cont_8to1_1708_2_alg».proof.Proof.Gen.Kernel.Frame
import proofs.«153165_g26070451486833_cont_8to1_1708_2_alg».proof.Proof.Gen.KernelIdeal
import proofs.«153165_g26070451486833_cont_8to1_1708_2_alg».proof.Proof.Gen.KernelIdeal.Skeleton
import proofs.«153165_g26070451486833_cont_8to1_1708_2_alg».proof.Proof.Gen.KernelIdeal.Launch
import proofs.«153165_g26070451486833_cont_8to1_1708_2_alg».proof.Proof.Gen.KernelIdeal.Points
import proofs.«153165_g26070451486833_cont_8to1_1708_2_alg».proof.Proof.Gen.KernelIdeal.Frame
import proofs.«153165_g26070451486833_cont_8to1_1708_2_alg».proof.Proof.Gen.ReferenceIdeal
import proofs.«153165_g26070451486833_cont_8to1_1708_2_alg».proof.Proof.Gen.Pre_finite_inputs
import proofs.«153165_g26070451486833_cont_8to1_1708_2_alg».proof.Proof.Gen.ReferenceIdeal.Run
import proofs.«153165_g26070451486833_cont_8to1_1708_2_alg».proof.Proof.Gen.ReferenceIdeal.Read
import proofs.«153165_g26070451486833_cont_8to1_1708_2_alg».proof.Proof.HyperConv
import proofs.«153165_g26070451486833_cont_8to1_1708_2_alg».proof.Proof.Launched
import proofs.«153165_g26070451486833_cont_8to1_1708_2_alg».proof.Proof.Chain
import proofs.«153165_g26070451486833_cont_8to1_1708_2_alg».proof.Proof.Reference
import proofs.«153165_g26070451486833_cont_8to1_1708_2_alg».proof.Proof.Arrangement
import proofs.«153165_g26070451486833_cont_8to1_1708_2_alg».proof.Proof.FiniteLogits
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the fused arrangement of the (agreeing) launch memories: the kernel's by its
    regions, the reference's because, its logits being finite, its stacked arrangement is the fused one. -/
theorem algebraic : Cert.algebraic_KernelIdeal_ReferenceIdeal := by
  intro m ρ m' ρ' hpre hagree
  refine ⟨fun c => HyperConv.fusedResult (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (fun k => m ((c.tc : Thread Cert.KernelIdeal.nD Cert.KernelIdeal.τ).loc Cert.KernelIdeal.main_arg3) (ix1 k))
      (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.KernelIdeal.Chain.result_eq m ρ c), (h c).2⟩)
      (Cert.KernelIdeal.Launched.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v25_eq, Cert.ReferenceIdeal.Stacked.result_eq,
      (hagree c).1, (hagree c).2.1, (hagree c).2.2.1, (hagree c).2.2.2]
    exact (Cert.HyperConv.fusedResult_eq_stackedResult _ _ _ _
      (fun k => Cert.FiniteLogits.logits_real m hpre c k)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
